-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x64x3 : Shape := ⟨3, ![20000, 64, 3]⟩
abbrev S2x640000 : Shape := ⟨2, ![2, 640000]⟩
abbrev S640000x128 : Shape := ⟨2, ![640000, 128]⟩
abbrev S640000x3 : Shape := ⟨2, ![640000, 3]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x64x3 : S_.BroadcastsInDim S20000x64x3 (![] : Fin 0 → Fin S20000x64x3.rank)
  reducesTo_S20000x64x3_S_d0_1_2 : S20000x64x3.ReducesTo [0, 1, 2] S_
  bcast_S_S640000x128 : S_.BroadcastsInDim S640000x128 (![] : Fin 0 → Fin S640000x128.rank)
  reducesTo_S640000x128_S_d0_1 : S640000x128.ReducesTo [0, 1] S_
  bcast_S_S640000x3 : S_.BroadcastsInDim S640000x3 (![] : Fin 0 → Fin S640000x3.rank)
  reducesTo_S640000x3_S_d0_1 : S640000x3.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S128 .f32) (main_arg14 : FVec F S128 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x128 .f32) (main_arg10 : FVec F S128 .f32) (main_arg11 : FVec F S128x64 .f32) (main_arg12 : FVec F S64 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_v48 main_v49 main_v50

def fn_part1 {F : FTy → Type} [FloatOps F] (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128 .f32) (main_arg14 : FVec F S128 .f32) (main_v13 : IVec S_ 1) (main_v16 : IVec S640000x3 1) : IVec S_ 1 :=
  let main_c_5 : IVec S_ 1 := constantI S_ 1 1#1
  let main_v17 : IVec S_ 1 := (fun x v => Host.reduce IntOp.andi x v reducesTo_S640000x3_S_d0_1 h_S_) main_v16 main_c_5
  let main_v18 : IVec S_ 1 := andi main_v13 main_v17
  let main_v19 : FVec F S384x128 .f32 := Host.absf main_arg5
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S20000x128 .f32) (main_arg1 : FVec F S20000x64x3 .f32) (main_arg2 : IVec S2x640000 32) (main_arg3 : FVec F S640000x128 .f32) (main_arg4 : FVec F S640000x3 .f32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128 .f32) (main_arg14 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x64x3 .f32 := Host.absf main_arg1
  let main_cst_0 : FVec F S_ .f32 := constant S_ .f32 0x7F800000#32
  let main_v5 : FVec F S20000x64x3 .f32 := broadcastInDim S20000x64x3 ![] bcast_S_S20000x64x3 main_cst_0
  let main_v6 : IVec S20000x64x3 1 := cmpf .olt main_v4 main_v5
  let main_c_1 : IVec S_ 1 := constantI S_ 1 1#1
  let main_v7 : IVec S_ 1 := (fun x v => Host.reduce IntOp.andi x v reducesTo_S20000x64x3_S_d0_1_2 h_S_) main_v6 main_c_1
  let main_v8 : IVec S_ 1 := andi main_v3 main_v7
  let main_v9 : FVec F S640000x128 .f32 := Host.absf main_arg3
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  let main_v14 : FVec F S640000x3 .f32 := Host.absf main_arg4
  let main_cst_4 : FVec F S_ .f32 := constant S_ .f32 0x7F800000#32
  let main_v15 : FVec F S640000x3 .f32 := broadcastInDim S640000x3 ![] bcast_S_S640000x3 main_cst_4
  let main_v16 : IVec S640000x3 1 := cmpf .olt main_v14 main_v15
  fn_part1 (F := F) main_arg5 main_arg6 main_arg7 main_arg8 main_arg9 main_arg10 main_arg11 main_arg12 main_arg13 main_arg14 main_v13 main_v16
-- ==== Kernel.lean ====
abbrev S20000x128 : Shape := ⟨2, ![20000, 128]⟩
abbrev S20000x64x3 : Shape := ⟨3, ![20000, 64, 3]⟩
abbrev S2x640000 : Shape := ⟨2, ![2, 640000]⟩
abbrev S640000x128 : Shape := ⟨2, ![640000, 128]⟩
abbrev S640000x3 : Shape := ⟨2, ![640000, 3]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S5000x128 : Shape := ⟨2, ![5000, 128]⟩
abbrev S5000x64 : Shape := ⟨2, ![5000, 64]⟩
abbrev S1x128 : Shape := ⟨2, ![1, 128]⟩
abbrev S1x64 : Shape := ⟨2, ![1, 64]⟩
abbrev S640000x64x1 : Shape := ⟨3, ![640000, 64, 1]⟩
abbrev S640000x1x3 : Shape := ⟨3, ![640000, 1, 3]⟩
abbrev S640000x64x3 : Shape := ⟨3, ![640000, 64, 3]⟩
abbrev S2000x128 : Shape := ⟨2, ![2000, 128]⟩
abbrev S2000 : Shape := ⟨1, ![2000]⟩
abbrev S2000x1 : Shape := ⟨2, ![2000, 1]⟩

abbrev nBuf : Space → Nat
  | .hbm => 65
  | .vmem => 28
  | .smem => 0
  | _ => 0

abbrev bufTy : (tb : Table) → Fin (tcTables nBuf tb) → BufTy
  | .hbm, ⟨0, _⟩ => ⟨S20000x128, .f32⟩
  | .hbm, ⟨1, _⟩ => ⟨S20000x64x3, .f32⟩
  | .hbm, ⟨2, _⟩ => ⟨S2x640000, .i32⟩
  | .hbm, ⟨3, _⟩ => ⟨S640000x128, .f32⟩
  | .hbm, ⟨4, _⟩ => ⟨S640000x3, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S20000x128, .bf16⟩
  | .hbm, ⟨20, _⟩ => ⟨S640000x128, .bf16⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .bf16⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .bf16⟩
  | .hbm, ⟨39, _⟩ => ⟨S128x128, .f32⟩
  | .hbm, ⟨40, _⟩ => ⟨S128x128, .bf16⟩
  | .hbm, ⟨41, _⟩ => ⟨S128x128, .f32⟩
  | .hbm, ⟨42, _⟩ => ⟨S128x128, .bf16⟩
  | .hbm, ⟨43, _⟩ => ⟨S128x128, .f32⟩
  | .hbm, ⟨44, _⟩ => ⟨S128x128, .bf16⟩
  | .hbm, ⟨45, _⟩ => ⟨S128x128, .bf16⟩
  | .hbm, ⟨46, _⟩ => ⟨S128x64, .bf16⟩
  | .hbm, ⟨47, _⟩ => ⟨S640000x128, .f32⟩
  | .hbm, ⟨48, _⟩ => ⟨S640000x64, .f32⟩
  | .hbm, ⟨49, _⟩ => ⟨S640000x64x1, .f32⟩
  | .hbm, ⟨50, _⟩ => ⟨S640000x1x3, .f32⟩
  | .hbm, ⟨51, _⟩ => ⟨S640000x64x3, .f32⟩
  | .hbm, ⟨52, _⟩ => ⟨S640000x64x3, .f32⟩
  | .hbm, ⟨53, _⟩ => ⟨S640000x64x3, .f32⟩
  | .hbm, ⟨54, _⟩ => ⟨S_, .f32⟩
  | .hbm, ⟨55, _⟩ => ⟨S20000x128, .f32⟩
  | .hbm, ⟨56, _⟩ => ⟨S640000x1, .i32⟩
  | .hbm, ⟨57, _⟩ => ⟨S20000x128, .f32⟩
  | .hbm, ⟨58, _⟩ => ⟨S_, .f32⟩
  | .hbm, ⟨59, _⟩ => ⟨S20000x64x3, .f32⟩
  | .hbm, ⟨60, _⟩ => ⟨S640000x1, .i32⟩
  | .hbm, ⟨61, _⟩ => ⟨S20000x64x3, .f32⟩
  | .hbm, ⟨62, _⟩ => ⟨S128x128, .bf16⟩
  | .hbm, ⟨63, _⟩ => ⟨S20000x128, .f32⟩
  | .hbm, ⟨64, _⟩ => ⟨S20000x64x3, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S128x64, .bf16⟩
  | .local _ .vmem, ⟨13, _⟩ => ⟨S64, .f32⟩
  | .local _ .vmem, ⟨14, _⟩ => ⟨S5000x128, .f32⟩
  | .local _ .vmem, ⟨15, _⟩ => ⟨S5000x128, .f32⟩
  | .local _ .vmem, ⟨16, _⟩ => ⟨S5000x64, .f32⟩
  | .local _ .vmem, ⟨17, _⟩ => ⟨S5000x64, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .bf16⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x128, .f32⟩
  | .local _ .vmem, ⟨27, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bitsLt_bf16_f32 : FTy.bits .bf16 < FTy.bits .f32
  bcast_S_S640000 : S_.BroadcastsInDim S640000 (![] : Fin 0 → Fin S640000.rank)
  bcast_S640000_S640000x1_0 : S640000.BroadcastsInDim S640000x1 (![0] : Fin 1 → Fin S640000x1.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S640000x64_S640000x64x1_0_1 : S640000x64.BroadcastsInDim S640000x64x1 (![0, 1] : Fin 2 → Fin S640000x64x1.rank)
  bcast_S640000x3_S640000x1x3_0_2 : S640000x3.BroadcastsInDim S640000x1x3 (![0, 2] : Fin 2 → Fin S640000x1x3.rank)
  bcast_S640000x64x1_S640000x64x3_0_1_2 : S640000x64x1.BroadcastsInDim S640000x64x3 (![0, 1, 2] : Fin 3 → Fin S640000x64x3.rank)
  bcast_S640000x1x3_S640000x64x3_0_1_2 : S640000x1x3.BroadcastsInDim S640000x64x3 (![0, 1, 2] : Fin 3 → Fin S640000x64x3.rank)
  bcast_S_S20000x128 : S_.BroadcastsInDim S20000x128 (![] : Fin 0 → Fin S20000x128.rank)
  bcast_S_S20000x64x3 : S_.BroadcastsInDim S20000x64x3 (![] : Fin 0 → Fin S20000x64x3.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S20000x128_S640000x1_S640000x128_1_0_n_n_0_1_1128_wf : GatherDims.WF S20000x128 S640000x1 S640000x128 [1] [0] [] [0] [] 1 ![1, 128]
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S20000x128_S640000x1_S640000x128_1_0_0_1_wf : ScatterDims.WF S20000x128 S640000x1 S640000x128 [1] [0] [0] 1
  scatter_S20000x64x3_S640000x1_S640000x64x3_12_0_0_1_wf : ScatterDims.WF S20000x64x3 S640000x1 S640000x64x3 [1, 2] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .bf16 = 32 ∨ (Rect.block (s := S640000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .bf16 = 32 ∨ (Rect.block (s := S640000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S640000x128.size a
  hwx0_2 : ∀ i : grid0.Coords, EltTy.bits .bf16 = 32 ∨ (Rect.block (s := S640000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S640000x128.size a
  hwx0_11 : ∀ i : grid0.Coords, EltTy.bits .f32 = 32 ∨ (Rect.block (s := S640000x128) S5000x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x64.size a ≤ S640000x64.size a
  hwx0_12 : ∀ i : grid0.Coords, EltTy.bits .f32 = 32 ∨ (Rect.block (s := S640000x64) S5000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x64x3_S640000x1_S640000x64x3_12_0_0_1 : ScatterDims S20000x64x3 S640000x1 S640000x64x3 where
  updateWindowDims := [1, 2]
  insertedWindowDims := [0]
  scatterDimsToOperandDims := [0]
  indexVectorDim := 1
  wf := scatter_S20000x64x3_S640000x1_S640000x64x3_12_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28_0) S5000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v28_1) S5000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x128 : Shape := ⟨2, ![20000, 128]⟩
abbrev S20000x64x3 : Shape := ⟨3, ![20000, 64, 3]⟩
abbrev S2x640000 : Shape := ⟨2, ![2, 640000]⟩
abbrev S640000x128 : Shape := ⟨2, ![640000, 128]⟩
abbrev S640000x3 : Shape := ⟨2, ![640000, 3]⟩
abbrev S384x128 : Shape := ⟨2, ![384, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S640000x64 : Shape := ⟨2, ![640000, 64]⟩
abbrev S1x64 : Shape := ⟨2, ![1, 64]⟩
abbrev S640000x64x1 : Shape := ⟨3, ![640000, 64, 1]⟩
abbrev S640000x1x3 : Shape := ⟨3, ![640000, 1, 3]⟩
abbrev S640000x64x3 : Shape := ⟨3, ![640000, 64, 3]⟩
abbrev S20000 : Shape := ⟨1, ![20000]⟩
abbrev S20000x1 : Shape := ⟨2, ![20000, 1]⟩

abbrev nBuf : Space → Nat
  | .hbm => 125
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S20000x64x3, .f32⟩
  | .hbm, ⟨2, _⟩ => ⟨S2x640000, .i32⟩
  | .hbm, ⟨3, _⟩ => ⟨S640000x128, .f32⟩
  | .hbm, ⟨4, _⟩ => ⟨S640000x3, .f32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128, .f32⟩
  | .hbm, ⟨14, _⟩ => ⟨S128, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x384, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S_, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S1x128, .f32⟩
  | .hbm, ⟨53, _⟩ => ⟨S640000x128, .f32⟩
  | .hbm, ⟨54, _⟩ => ⟨S640000x128, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S640000x128, .f32⟩
  | .hbm, ⟨59, _⟩ => ⟨S640000x128, .f32⟩
  | .hbm, ⟨60, _⟩ => ⟨S_, .f32⟩
  | .hbm, ⟨61, _⟩ => ⟨S640000x128, .f32⟩
  | .hbm, ⟨62, _⟩ => ⟨S640000x128, .f32⟩
  | .hbm, ⟨63, _⟩ => ⟨S640000x128, .f32⟩
  | .hbm, ⟨64, _⟩ => ⟨S640000x64, .f32⟩
  | .hbm, ⟨65, _⟩ => ⟨S1x64, .f32⟩
  | .hbm, ⟨66, _⟩ => ⟨S640000x64, .f32⟩
  | .hbm, ⟨67, _⟩ => ⟨S640000x64, .f32⟩
  | .hbm, ⟨68, _⟩ => ⟨S640000x64x1, .f32⟩
  | .hbm, ⟨69, _⟩ => ⟨S640000x1x3, .f32⟩
  | .hbm, ⟨70, _⟩ => ⟨S640000x64x3, .f32⟩
  | .hbm, ⟨71, _⟩ => ⟨S640000x64x3, .f32⟩
  | .hbm, ⟨72, _⟩ => ⟨S640000x64x3, .f32⟩
  | .hbm, ⟨73, _⟩ => ⟨S_, .f32⟩
  | .hbm, ⟨74, _⟩ => ⟨S20000x128, .f32⟩
  | .hbm, ⟨75, _⟩ => ⟨S640000x1, .i32⟩
  | .hbm, ⟨76, _⟩ => ⟨S20000x128, .f32⟩
  | .hbm, ⟨77, _⟩ => ⟨S_, .f32⟩
  | .hbm, ⟨78, _⟩ => ⟨S20000x64x3, .f32⟩
  | .hbm, ⟨79, _⟩ => ⟨S640000x1, .i32⟩
  | .hbm, ⟨80, _⟩ => ⟨S20000x64x3, .f32⟩
  | .hbm, ⟨81, _⟩ => ⟨S20000x128, .f32⟩
  | .hbm, ⟨82, _⟩ => ⟨S20000x128, .f32⟩
  | .hbm, ⟨83, _⟩ => ⟨S_, .f32⟩
  | .hbm, ⟨84, _⟩ => ⟨S20000x128, .f32⟩
  | .hbm, ⟨85, _⟩ => ⟨S20000x128, .f32⟩
  | .hbm, ⟨86, _⟩ => ⟨S_, .f32⟩
  | .hbm, ⟨87, _⟩ => ⟨S20000x128, .f32⟩
  | .hbm, ⟨88, _⟩ => ⟨S20000x128, .f32⟩
  | .hbm, ⟨89, _⟩ => ⟨S20000x128, .f32⟩
  | .hbm, ⟨90, _⟩ => ⟨S20000x128, .f32⟩
  | .hbm, ⟨91, _⟩ => ⟨S1x128, .f32⟩
  | .hbm, ⟨92, _⟩ => ⟨S20000x128, .f32⟩
  | .hbm, ⟨93, _⟩ => ⟨S20000x128, .f32⟩
  | .hbm, ⟨94, _⟩ => ⟨S20000x128, .f32⟩
  | .hbm, ⟨95, _⟩ => ⟨S_, .f32⟩
  | .hbm, ⟨96, _⟩ => ⟨S20000, .f32⟩
  | .hbm, ⟨97, _⟩ => ⟨S20000x1, .f32⟩
  | .hbm, ⟨98, _⟩ => ⟨S_, .f32⟩
  | .hbm, ⟨99, _⟩ => ⟨S20000x1, .f32⟩
  | .hbm, ⟨100, _⟩ => ⟨S20000x1, .f32⟩
  | .hbm, ⟨101, _⟩ => ⟨S20000x128, .f32⟩
  | .hbm, ⟨102, _⟩ => ⟨S20000x128, .f32⟩
  | .hbm, ⟨103, _⟩ => ⟨S20000x128, .f32⟩
  | .hbm, ⟨104, _⟩ => ⟨S_, .f32⟩
  | .hbm, ⟨105, _⟩ => ⟨S20000, .f32⟩
  | .hbm, ⟨106, _⟩ => ⟨S20000x1, .f32⟩
  | .hbm, ⟨107, _⟩ => ⟨S_, .f32⟩
  | .hbm, ⟨108, _⟩ => ⟨S20000x1, .f32⟩
  | .hbm, ⟨109, _⟩ => ⟨S20000x1, .f32⟩
  | .hbm, ⟨110, _⟩ => ⟨S20000x128, .f32⟩
  | .hbm, ⟨111, _⟩ => ⟨S20000x128, .f32⟩
  | .hbm, ⟨112, _⟩ => ⟨S1x128, .f32⟩
  | .hbm, ⟨113, _⟩ => ⟨S20000x128, .f32⟩
  | .hbm, ⟨114, _⟩ => ⟨S20000x128, .f32⟩
  | .hbm, ⟨115, _⟩ => ⟨S_, .f32⟩
  | .hbm, ⟨116, _⟩ => ⟨S20000x1, .f32⟩
  | .hbm, ⟨117, _⟩ => ⟨S20000x1, .f32⟩
  | .hbm, ⟨118, _⟩ => ⟨S20000x1, .f32⟩
  | .hbm, ⟨119, _⟩ => ⟨S20000x128, .f32⟩
  | .hbm, ⟨120, _⟩ => ⟨S20000x128, .f32⟩
  | .hbm, ⟨121, _⟩ => ⟨S1x128, .f32⟩
  | .hbm, ⟨122, _⟩ => ⟨S20000x128, .f32⟩
  | .hbm, ⟨123, _⟩ => ⟨S20000x128, .f32⟩
  | .hbm, ⟨124, _⟩ => ⟨S20000x64x3, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_3 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_4 : Ref sig .tc := ⟨.hbm, 95, rfl⟩
abbrev main_v50 : Ref sig .tc := ⟨.hbm, 96, rfl⟩
abbrev main_v51 : Ref sig .tc := ⟨.hbm, 97, rfl⟩
abbrev main_cst_5 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_6 : Ref sig .tc := ⟨.hbm, 104, rfl⟩
abbrev main_v57 : Ref sig .tc := ⟨.hbm, 105, rfl⟩
abbrev main_v58 : Ref sig .tc := ⟨.hbm, 106, rfl⟩
abbrev main_cst_7 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_8 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S64_S1x64_1 : S64.BroadcastsInDim S1x64 (![1] : Fin 1 → Fin S1x64.rank)
  bcast_S1x64_S640000x64_0_1 : S1x64.BroadcastsInDim S640000x64 (![0, 1] : Fin 2 → Fin S640000x64.rank)
  bcast_S640000x64_S640000x64x1_0_1 : S640000x64.BroadcastsInDim S640000x64x1 (![0, 1] : Fin 2 → Fin S640000x64x1.rank)
  bcast_S640000x3_S640000x1x3_0_2 : S640000x3.BroadcastsInDim S640000x1x3 (![0, 2] : Fin 2 → Fin S640000x1x3.rank)
  bcast_S640000x64x1_S640000x64x3_0_1_2 : S640000x64x1.BroadcastsInDim S640000x64x3 (![0, 1, 2] : Fin 3 → Fin S640000x64x3.rank)
  bcast_S640000x1x3_S640000x64x3_0_1_2 : S640000x1x3.BroadcastsInDim S640000x64x3 (![0, 1, 2] : Fin 3 → Fin S640000x64x3.rank)
  bcast_S_S20000x128 : S_.BroadcastsInDim S20000x128 (![] : Fin 0 → Fin S20000x128.rank)
  bcast_S_S20000x64x3 : S_.BroadcastsInDim S20000x64x3 (![] : Fin 0 → Fin S20000x64x3.rank)
  bcast_S1x128_S20000x128_0_1 : S1x128.BroadcastsInDim S20000x128 (![0, 1] : Fin 2 → Fin S20000x128.rank)
  reducesTo_S20000x128_S20000_d1 : S20000x128.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  dot_S640000x128_S128x64_S640000x64_1_0_0_1_n_n_wf : DotDims.WF S640000x128 S128x64 S640000x64 [1] [0] [0] [1] [] []
  scatter_S20000x128_S640000x1_S640000x128_1_0_0_1_wf : ScatterDims.WF S20000x128 S640000x1 S640000x128 [1] [0] [0] 1
  scatter_S20000x64x3_S640000x1_S640000x64x3_12_0_0_1_wf : ScatterDims.WF S20000x64x3 S640000x1 S640000x64x3 [1, 2] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x64_S640000x64_1_0_0_1_n_n : DotDims S640000x128 S128x64 S640000x64 where
  lhsContracting := [1]
  rhsContracting := [0]
  lhsNonContracting := [0]
  rhsNonContracting := [1]
  lhsBatch := []
  rhsBatch := []
  wf := dot_S640000x128_S128x64_S640000x64_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000x64x3_S640000x1_S640000x64x3_12_0_0_1 : ScatterDims S20000x64x3 S640000x1 S640000x64x3 where
  updateWindowDims := [1, 2]
  insertedWindowDims := [0]
  scatterDimsToOperandDims := [0]
  indexVectorDim := 1
  wf := scatter_S20000x64x3_S640000x1_S640000x64x3_12_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.RefFold.lean ====
import proofs.«146238_j65618510349072_1_alg».proof.Proof.RefOps
import proofs.«146238_j65618510349072_1_alg».proof.Proof.RefStages
import Idealize.ShloMosaic.Lib.StableHlo.Run
import Idealize.ShloMosaic.Lib.Pipeline.Frame

noncomputable section

namespace Cert.ReferenceIdeal.Fold

open Cert.ReferenceIdeal Cert.ReferenceIdeal.Gen Cert.ReferenceIdeal.Ops Cert.ReferenceIdeal.Stage
open Idealize.ShloMosaic Idealize.ShloMosaic.TcCoe Idealize.SL.Sem Idealize.ShloMosaic.StableHlo

variable {F : FTy → Type} [FloatOps F] (V : Valuation τ sig (Elt F))

/-! # The reference run as stage functions of the arguments

The 110 operations are cut into five stretches where few values cross: after the concatenate (`main_v18`), after the
message (`main_v27`), after the two scattered sums (`main_v40`, `main_v43`), after the state plus its update
(`main_v49`); the rest reaches the two outputs. For each stretch and ANY contents `W` before it, the fold of the stretch
at a buffer that a later stretch reads is the stage function of that buffer, given that `W` holds the stage functions
at the buffers the stretch takes over from the ones before; and a buffer the stretch does not write keeps its contents.
Chaining the five gives the run at the two result buffers; no operation writes an argument. -/

/-- The concatenate's result at its own buffer: the three operands, each read at its own buffer. -/
theorem v18_result' (W : Valuation τ sig (Elt F)) (hxs hy) :
    (nary (τ := τ) ![main_v10, main_v17, main_arg3] main_v18 (fun u => concatenate S640000x384 1 [⟨S640000x128, u 0⟩, ⟨S640000x128, u 1⟩, ⟨S640000x128, u 2⟩] concatenates_S640000x128_S640000x128_S640000x128_S640000x384_d1) hxs hy).result W (no_index (Proc.devRef .tc main_v18))
      = concatenate S640000x384 1 [⟨S640000x128, W (Proc.devRef .tc main_v10)⟩, ⟨S640000x128, W (Proc.devRef .tc main_v17)⟩, ⟨S640000x128, W (Proc.devRef .tc main_arg3)⟩] concatenates_S640000x128_S640000x128_S640000x128_S640000x384_d1 :=
  nary_result _ _ _ hxs hy W

/-- Computes a stretch's fold at a buffer: each operation's result at its own buffer is its function of its operands'
    contents, at any other buffer what was there. -/
macro "fold_results_simp" : tactic =>
  `(tactic| (simp (disch := decide) only [after_cons, after_nil,
      nullary_result', unary_result', binary_result', ternary_result', reshape_result', v18_result',
      nullary_result_ne', unary_result_ne', binary_result_ne', ternary_result_ne', reshape_result_ne',
      nary_result_ne']))
/-! ### The five stretches, in order: their concatenation is the operation list -/

abbrev c1 : List (HloOp τ sig (Elt F)) :=
  [ unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 20000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v3 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 20000#32),
    unary main_c_2 main_v13 (broadcastInDim S640000 ![] bcast_S_S640000 : (⟨S_, .i32⟩ : BufTy).Contents (Elt F) → (⟨S640000, .i32⟩ : BufTy).Contents (Elt F)),
    binary main_v3 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v3 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_arg0 main_v16 main_v17 ((fun x i => Host.gather gather_S20000x128_S640000x1_S640000x128_1_0_n_n_0_1_1128 x i) : (⟨S20000x128, .f32⟩ : BufTy).Contents (Elt F) → (⟨S640000x1, .i32⟩ : BufTy).Contents (Elt F) → (⟨S640000x128, .f32⟩ : BufTy).Contents (Elt F)),
    nary ![main_v10, main_v17, main_arg3] main_v18 (fun u => concatenate S640000x384 1 [⟨S640000x128, u 0⟩, ⟨S640000x128, u 1⟩, ⟨S640000x128, u 2⟩] concatenates_S640000x128_S640000x128_S640000x128_S640000x384_d1) ]

abbrev c2 : List (HloOp τ sig (Elt F)) :=
  [ binary main_v18 main_arg5 main_v19 ((fun l r => Host.dotGeneral dot_S640000x384_S384x128_S640000x128_1_0_0_1_n_n none l r) : (⟨S640000x384, .f32⟩ : BufTy).Contents (Elt F) → (⟨S384x128, .f32⟩ : BufTy).Contents (Elt F) → (⟨S640000x128, .f32⟩ : BufTy).Contents (Elt F)),
    unary main_arg6 main_v20 (broadcastInDim S1x128 ![1] bcast_S128_S1x128_1 : (⟨S128, .f32⟩ : BufTy).Contents (Elt F) → (⟨S1x128, .f32⟩ : BufTy).Contents (Elt F)),
    unary main_v20 main_v21 (broadcastInDim S640000x128 ![0, 1] bcast_S1x128_S640000x128_0_1 : (⟨S1x128, .f32⟩ : BufTy).Contents (Elt F) → (⟨S640000x128, .f32⟩ : BufTy).Contents (Elt F)),
    binary main_v19 main_v21 main_v22 (addf : (⟨S640000x128, .f32⟩ : BufTy).Contents (Elt F) → (⟨S640000x128, .f32⟩ : BufTy).Contents (Elt F) → (⟨S640000x128, .f32⟩ : BufTy).Contents (Elt F)),
    TRef.unary (TRef.of (T := ⟨S640000x128, .f32⟩) main_v22) (TRef.of (T := ⟨S640000x128, .f32⟩) main_call0_v0) Host.negf,
    TRef.unary (TRef.of (T := ⟨S640000x128, .f32⟩) main_call0_v0) (TRef.of (T := ⟨S640000x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S640000x128, .f32⟩) main_call0_v2) (broadcastInDim S640000x128 ![] bcast_S_S640000x128),
    TRef.binary (TRef.of (T := ⟨S640000x128, .f32⟩) main_call0_v2) (TRef.of (T := ⟨S640000x128, .f32⟩) main_call0_v1) (TRef.of (T := ⟨S640000x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S640000x128, .f32⟩) main_call0_v4) (broadcastInDim S640000x128 ![] bcast_S_S640000x128),
    TRef.binary (TRef.of (T := ⟨S640000x128, .f32⟩) main_call0_v4) (TRef.of (T := ⟨S640000x128, .f32⟩) main_call0_v3) (TRef.of (T := ⟨S640000x128, .f32⟩) main_call0_v5) Host.divf,
    TRef.binary (TRef.of (T := ⟨S640000x128, .f32⟩) main_v22) (TRef.of (T := ⟨S640000x128, .f32⟩) main_call0_v5) (TRef.of (T := ⟨S640000x128, .f32⟩) main_v23) mulf,
    binary main_v23 main_arg7 main_v24 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg8 main_v25 (broadcastInDim S1x128 ![1] bcast_S128_S1x128_1 : (⟨S128, .f32⟩ : BufTy).Contents (Elt F) → (⟨S1x128, .f32⟩ : BufTy).Contents (Elt F)),
    unary main_v25 main_v26 (broadcastInDim S640000x128 ![0, 1] bcast_S1x128_S640000x128_0_1 : (⟨S1x128, .f32⟩ : BufTy).Contents (Elt F) → (⟨S640000x128, .f32⟩ : BufTy).Contents (Elt F)),
    binary main_v24 main_v26 main_v27 (addf : (⟨S640000x128, .f32⟩ : BufTy).Contents (Elt F) → (⟨S640000x128, .f32⟩ : BufTy).Contents (Elt F) → (⟨S640000x128, .f32⟩ : BufTy).Contents (Elt F)) ]

abbrev c3 : List (HloOp τ sig (Elt F)) :=
  [ TRef.unary (TRef.of (T := ⟨S640000x128, .f32⟩) main_v27) (TRef.of (T := ⟨S640000x128, .f32⟩) main_call1_v0) Host.negf,
    TRef.unary (TRef.of (T := ⟨S640000x128, .f32⟩) main_call1_v0) (TRef.of (T := ⟨S640000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S640000x128, .f32⟩) main_call1_v2) (broadcastInDim S640000x128 ![] bcast_S_S640000x128),
    TRef.binary (TRef.of (T := ⟨S640000x128, .f32⟩) main_call1_v2) (TRef.of (T := ⟨S640000x128, .f32⟩) main_call1_v1) (TRef.of (T := ⟨S640000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S640000x128, .f32⟩) main_call1_v4) (broadcastInDim S640000x128 ![] bcast_S_S640000x128),
    TRef.binary (TRef.of (T := ⟨S640000x128, .f32⟩) main_call1_v4) (TRef.of (T := ⟨S640000x128, .f32⟩) main_call1_v3) (TRef.of (T := ⟨S640000x128, .f32⟩) main_call1_v5) Host.divf,
    TRef.binary (TRef.of (T := ⟨S640000x128, .f32⟩) main_v27) (TRef.of (T := ⟨S640000x128, .f32⟩) main_call1_v5) (TRef.of (T := ⟨S640000x128, .f32⟩) main_v28) mulf,
    binary main_v28 main_arg11 main_v29 ((fun l r => Host.dotGeneral dot_S640000x128_S128x64_S640000x64_1_0_0_1_n_n none l r) : (⟨S640000x128, .f32⟩ : BufTy).Contents (Elt F) → (⟨S128x64, .f32⟩ : BufTy).Contents (Elt F) → (⟨S640000x64, .f32⟩ : BufTy).Contents (Elt F)),
    unary main_arg12 main_v30 (broadcastInDim S1x64 ![1] bcast_S64_S1x64_1 : (⟨S64, .f32⟩ : BufTy).Contents (Elt F) → (⟨S1x64, .f32⟩ : BufTy).Contents (Elt F)),
    unary main_v30 main_v31 (broadcastInDim S640000x64 ![0, 1] bcast_S1x64_S640000x64_0_1 : (⟨S1x64, .f32⟩ : BufTy).Contents (Elt F) → (⟨S640000x64, .f32⟩ : BufTy).Contents (Elt F)),
    binary main_v29 main_v31 main_v32 (addf : (⟨S640000x64, .f32⟩ : BufTy).Contents (Elt F) → (⟨S640000x64, .f32⟩ : BufTy).Contents (Elt F) → (⟨S640000x64, .f32⟩ : BufTy).Contents (Elt F)),
    unary main_v32 main_v33 (broadcastInDim S640000x64x1 ![0, 1] bcast_S640000x64_S640000x64x1_0_1 : (⟨S640000x64, .f32⟩ : BufTy).Contents (Elt F) → (⟨S640000x64x1, .f32⟩ : BufTy).Contents (Elt F)),
    unary main_arg4 main_v34 (broadcastInDim S640000x1x3 ![0, 2] bcast_S640000x3_S640000x1x3_0_2 : (⟨S640000x3, .f32⟩ : BufTy).Contents (Elt F) → (⟨S640000x1x3, .f32⟩ : BufTy).Contents (Elt F)),
    unary main_v33 main_v35 (broadcastInDim S640000x64x3 ![0, 1, 2] bcast_S640000x64x1_S640000x64x3_0_1_2 : (⟨S640000x64x1, .f32⟩ : BufTy).Contents (Elt F) → (⟨S640000x64x3, .f32⟩ : BufTy).Contents (Elt F)),
    unary main_v34 main_v36 (broadcastInDim S640000x64x3 ![0, 1, 2] bcast_S640000x1x3_S640000x64x3_0_1_2 : (⟨S640000x1x3, .f32⟩ : BufTy).Contents (Elt F) → (⟨S640000x64x3, .f32⟩ : BufTy).Contents (Elt F)),
    binary main_v35 main_v36 main_v37 (mulf : (⟨S640000x64x3, .f32⟩ : BufTy).Contents (Elt F) → (⟨S640000x64x3, .f32⟩ : BufTy).Contents (Elt F) → (⟨S640000x64x3, .f32⟩ : BufTy).Contents (Elt F)),
    nullary main_cst (constant S_ .f32 0x00000000#32),
    unary main_cst main_v38 (broadcastInDim S20000x128 ![] bcast_S_S20000x128 : (⟨S_, .f32⟩ : BufTy).Contents (Elt F) → (⟨S20000x128, .f32⟩ : BufTy).Contents (Elt F)),
    unary main_v1 main_v39 (broadcastInDim S640000x1 ![0] bcast_S640000_S640000x1_0 : (⟨S640000, .i32⟩ : BufTy).Contents (Elt F) → (⟨S640000x1, .i32⟩ : BufTy).Contents (Elt F)),
    ternary main_v38 main_v39 main_v27 main_v40 ((fun x i u => Host.scatterAdd scatter_S20000x128_S640000x1_S640000x128_1_0_0_1 x i u) : (⟨S20000x128, .f32⟩ : BufTy).Contents (Elt F) → (⟨S640000x1, .i32⟩ : BufTy).Contents (Elt F) → (⟨S640000x128, .f32⟩ : BufTy).Contents (Elt F) → (⟨S20000x128, .f32⟩ : BufTy).Contents (Elt F)),
    nullary main_cst_3 (constant S_ .f32 0x00000000#32),
    unary main_cst_3 main_v41 (broadcastInDim S20000x64x3 ![] bcast_S_S20000x64x3 : (⟨S_, .f32⟩ : BufTy).Contents (Elt F) → (⟨S20000x64x3, .f32⟩ : BufTy).Contents (Elt F)),
    unary main_v1 main_v42 (broadcastInDim S640000x1 ![0] bcast_S640000_S640000x1_0 : (⟨S640000, .i32⟩ : BufTy).Contents (Elt F) → (⟨S640000x1, .i32⟩ : BufTy).Contents (Elt F)),
    ternary main_v41 main_v42 main_v37 main_v43 ((fun x i u => Host.scatterAdd scatter_S20000x64x3_S640000x1_S640000x64x3_12_0_0_1 x i u) : (⟨S20000x64x3, .f32⟩ : BufTy).Contents (Elt F) → (⟨S640000x1, .i32⟩ : BufTy).Contents (Elt F) → (⟨S640000x64x3, .f32⟩ : BufTy).Contents (Elt F) → (⟨S20000x64x3, .f32⟩ : BufTy).Contents (Elt F)) ]

abbrev c4 : List (HloOp τ sig (Elt F)) :=
  [ TRef.unary (TRef.of (T := ⟨S20000x128, .f32⟩) main_v40) (TRef.of (T := ⟨S20000x128, .f32⟩) main_call2_v0) Host.negf,
    TRef.unary (TRef.of (T := ⟨S20000x128, .f32⟩) main_call2_v0) (TRef.of (T := ⟨S20000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S20000x128, .f32⟩) main_call2_v2) (broadcastInDim S20000x128 ![] bcast_S_S20000x128),
    TRef.binary (TRef.of (T := ⟨S20000x128, .f32⟩) main_call2_v2) (TRef.of (T := ⟨S20000x128, .f32⟩) main_call2_v1) (TRef.of (T := ⟨S20000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S20000x128, .f32⟩) main_call2_v4) (broadcastInDim S20000x128 ![] bcast_S_S20000x128),
    TRef.binary (TRef.of (T := ⟨S20000x128, .f32⟩) main_call2_v4) (TRef.of (T := ⟨S20000x128, .f32⟩) main_call2_v3) (TRef.of (T := ⟨S20000x128, .f32⟩) main_call2_v5) Host.divf,
    TRef.binary (TRef.of (T := ⟨S20000x128, .f32⟩) main_v40) (TRef.of (T := ⟨S20000x128, .f32⟩) main_call2_v5) (TRef.of (T := ⟨S20000x128, .f32⟩) main_v44) mulf,
    binary main_v44 main_arg9 main_v45 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    unary main_arg10 main_v46 (broadcastInDim S1x128 ![1] bcast_S128_S1x128_1 : (⟨S128, .f32⟩ : BufTy).Contents (Elt F) → (⟨S1x128, .f32⟩ : BufTy).Contents (Elt F)),
    unary main_v46 main_v47 (broadcastInDim S20000x128 ![0, 1] bcast_S1x128_S20000x128_0_1 : (⟨S1x128, .f32⟩ : BufTy).Contents (Elt F) → (⟨S20000x128, .f32⟩ : BufTy).Contents (Elt F)),
    binary main_v45 main_v47 main_v48 (addf : (⟨S20000x128, .f32⟩ : BufTy).Contents (Elt F) → (⟨S20000x128, .f32⟩ : BufTy).Contents (Elt F) → (⟨S20000x128, .f32⟩ : BufTy).Contents (Elt F)),
    binary main_arg0 main_v48 main_v49 (addf : (⟨S20000x128, .f32⟩ : BufTy).Contents (Elt F) → (⟨S20000x128, .f32⟩ : BufTy).Contents (Elt F) → (⟨S20000x128, .f32⟩ : BufTy).Contents (Elt F)) ]

abbrev c5 : List (HloOp τ sig (Elt F)) :=
  [ nullary main_cst_4 (constant S_ .f32 0x00000000#32),
    binary main_v49 main_cst_4 main_v50 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v50 main_v51 (broadcastInDim S20000x1 ![0] bcast_S20000_S20000x1_0 : (⟨S20000, .f32⟩ : BufTy).Contents (Elt F) → (⟨S20000x1, .f32⟩ : BufTy).Contents (Elt F)),
    nullary main_cst_5 (constant S_ .f32 0x43000000#32),
    unary main_cst_5 main_v52 (broadcastInDim S20000x1 ![] bcast_S_S20000x1 : (⟨S_, .f32⟩ : BufTy).Contents (Elt F) → (⟨S20000x1, .f32⟩ : BufTy).Contents (Elt F)),
    binary main_v51 main_v52 main_v53 (Host.divf : (⟨S20000x1, .f32⟩ : BufTy).Contents (Elt F) → (⟨S20000x1, .f32⟩ : BufTy).Contents (Elt F) → (⟨S20000x1, .f32⟩ : BufTy).Contents (Elt F)),
    unary main_v53 main_v54 (broadcastInDim S20000x128 ![0, 1] bcast_S20000x1_S20000x128_0_1 : (⟨S20000x1, .f32⟩ : BufTy).Contents (Elt F) → (⟨S20000x128, .f32⟩ : BufTy).Contents (Elt F)),
    binary main_v49 main_v54 main_v55 (subf : (⟨S20000x128, .f32⟩ : BufTy).Contents (Elt F) → (⟨S20000x128, .f32⟩ : BufTy).Contents (Elt F) → (⟨S20000x128, .f32⟩ : BufTy).Contents (Elt F)),
    binary main_v55 main_v55 main_v56 (mulf : (⟨S20000x128, .f32⟩ : BufTy).Contents (Elt F) → (⟨S20000x128, .f32⟩ : BufTy).Contents (Elt F) → (⟨S20000x128, .f32⟩ : BufTy).Contents (Elt F)),
    nullary main_cst_6 (constant S_ .f32 0x00000000#32),
    binary main_v56 main_cst_6 main_v57 ((fun x v => Host.reduceAdd x v reducesTo_S20000x128_S20000_d1 h_S_) : (⟨S20000x128, .f32⟩ : BufTy).Contents (Elt F) → (⟨S_, .f32⟩ : BufTy).Contents (Elt F) → (⟨S20000, .f32⟩ : BufTy).Contents (Elt F)),
    unary main_v57 main_v58 (broadcastInDim S20000x1 ![0] bcast_S20000_S20000x1_0 : (⟨S20000, .f32⟩ : BufTy).Contents (Elt F) → (⟨S20000x1, .f32⟩ : BufTy).Contents (Elt F)),
    nullary main_cst_7 (constant S_ .f32 0x43000000#32),
    unary main_cst_7 main_v59 (broadcastInDim S20000x1 ![] bcast_S_S20000x1 : (⟨S_, .f32⟩ : BufTy).Contents (Elt F) → (⟨S20000x1, .f32⟩ : BufTy).Contents (Elt F)),
    binary main_v58 main_v59 main_v60 (Host.divf : (⟨S20000x1, .f32⟩ : BufTy).Contents (Elt F) → (⟨S20000x1, .f32⟩ : BufTy).Contents (Elt F) → (⟨S20000x1, .f32⟩ : BufTy).Contents (Elt F)),
    unary main_v53 main_v61 (broadcastInDim S20000x128 ![0, 1] bcast_S20000x1_S20000x128_0_1 : (⟨S20000x1, .f32⟩ : BufTy).Contents (Elt F) → (⟨S20000x128, .f32⟩ : BufTy).Contents (Elt F)),
    binary main_v49 main_v61 main_v62 (subf : (⟨S20000x128, .f32⟩ : BufTy).Contents (Elt F) → (⟨S20000x128, .f32⟩ : BufTy).Contents (Elt F) → (⟨S20000x128, .f32⟩ : BufTy).Contents (Elt F)),
    unary main_arg13 main_v63 (broadcastInDim S1x128 ![1] bcast_S128_S1x128_1 : (⟨S128, .f32⟩ : BufTy).Contents (Elt F) → (⟨S1x128, .f32⟩ : BufTy).Contents (Elt F)),
    unary main_v63 main_v64 (broadcastInDim S20000x128 ![0, 1] bcast_S1x128_S20000x128_0_1 : (⟨S1x128, .f32⟩ : BufTy).Contents (Elt F) → (⟨S20000x128, .f32⟩ : BufTy).Contents (Elt F)),
    binary main_v64 main_v62 main_v65 (mulf : (⟨S20000x128, .f32⟩ : BufTy).Contents (Elt F) → (⟨S20000x128, .f32⟩ : BufTy).Contents (Elt F) → (⟨S20000x128, .f32⟩ : BufTy).Contents (Elt F)),
    nullary main_cst_8 (constant S_ .f32 0x3727C5AC#32),
    unary main_cst_8 main_v66 (broadcastInDim S20000x1 ![] bcast_S_S20000x1 : (⟨S_, .f32⟩ : BufTy).Contents (Elt F) → (⟨S20000x1, .f32⟩ : BufTy).Contents (Elt F)),
    binary main_v60 main_v66 main_v67 (addf : (⟨S20000x1, .f32⟩ : BufTy).Contents (Elt F) → (⟨S20000x1, .f32⟩ : BufTy).Contents (Elt F) → (⟨S20000x1, .f32⟩ : BufTy).Contents (Elt F)),
    unary main_v67 main_v68 (Host.rsqrt : (⟨S20000x1, .f32⟩ : BufTy).Contents (Elt F) → (⟨S20000x1, .f32⟩ : BufTy).Contents (Elt F)),
    unary main_v68 main_v69 (broadcastInDim S20000x128 ![0, 1] bcast_S20000x1_S20000x128_0_1 : (⟨S20000x1, .f32⟩ : BufTy).Contents (Elt F) → (⟨S20000x128, .f32⟩ : BufTy).Contents (Elt F)),
    binary main_v65 main_v69 main_v70 (mulf : (⟨S20000x128, .f32⟩ : BufTy).Contents (Elt F) → (⟨S20000x128, .f32⟩ : BufTy).Contents (Elt F) → (⟨S20000x128, .f32⟩ : BufTy).Contents (Elt F)),
    unary main_arg14 main_v71 (broadcastInDim S1x128 ![1] bcast_S128_S1x128_1 : (⟨S128, .f32⟩ : BufTy).Contents (Elt F) → (⟨S1x128, .f32⟩ : BufTy).Contents (Elt F)),
    unary main_v71 main_v72 (broadcastInDim S20000x128 ![0, 1] bcast_S1x128_S20000x128_0_1 : (⟨S1x128, .f32⟩ : BufTy).Contents (Elt F) → (⟨S20000x128, .f32⟩ : BufTy).Contents (Elt F)),
    binary main_v70 main_v72 main_v73 (addf : (⟨S20000x128, .f32⟩ : BufTy).Contents (Elt F) → (⟨S20000x128, .f32⟩ : BufTy).Contents (Elt F) → (⟨S20000x128, .f32⟩ : BufTy).Contents (Elt F)),
    binary main_arg1 main_v43 main_v74 (addf : (⟨S20000x64x3, .f32⟩ : BufTy).Contents (Elt F) → (⟨S20000x64x3, .f32⟩ : BufTy).Contents (Elt F) → (⟨S20000x64x3, .f32⟩ : BufTy).Contents (Elt F)) ]

set_option maxRecDepth 8192 in
/-- The operation list is the five stretches in a row. -/
theorem ops_eq : (ops : List (HloOp τ sig (Elt F))) = c1 ++ c2 ++ c3 ++ c4 ++ c5 := rfl
/-! ### What each stretch writes, and that it leaves every other buffer as it was -/

abbrev ws1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_v18]

theorem c1_writes : (c1 : List (HloOp τ sig (Elt F))).Forall fun op => op.writes ⊆ (ws1.map (Proc.devRef (τ := τ) .tc)).toFinset := by
  simp only [c1, List.Forall, nullary_writes, unary_writes, binary_writes, ternary_writes, reshape_writes, nary_writes,
    Finset.singleton_subset_iff, List.mem_toFinset]
  repeat' apply And.intro
  all_goals exact List.mem_map_of_mem (by decide)

/-- A buffer that stretch 1 does not write keeps its contents. -/
theorem c1_frame (W : Valuation τ sig (Elt F)) {r : Ref sig .tc} (hr : r ∉ ws1) :
    after c1 W (Proc.devRef .tc r) = W (Proc.devRef .tc r) :=
  after_of_writes_sub c1 W c1_writes hr

abbrev ws2 : List (Ref sig .tc) := [main_v19, main_v20, main_v21, main_v22, main_call0_v0, main_call0_v1, main_call0_cst, main_call0_v2, main_call0_v3, main_call0_cst_0, main_call0_v4, main_call0_v5, main_v23, main_v24, main_v25, main_v26, main_v27]

theorem c2_writes : (c2 : List (HloOp τ sig (Elt F))).Forall fun op => op.writes ⊆ (ws2.map (Proc.devRef (τ := τ) .tc)).toFinset := by
  simp only [c2, List.Forall, nullary_writes, unary_writes, binary_writes, ternary_writes, reshape_writes, nary_writes,
    Finset.singleton_subset_iff, List.mem_toFinset]
  repeat' apply And.intro
  all_goals exact List.mem_map_of_mem (by decide)

/-- A buffer that stretch 2 does not write keeps its contents. -/
theorem c2_frame (W : Valuation τ sig (Elt F)) {r : Ref sig .tc} (hr : r ∉ ws2) :
    after c2 W (Proc.devRef .tc r) = W (Proc.devRef .tc r) :=
  after_of_writes_sub c2 W c2_writes hr

abbrev ws3 : List (Ref sig .tc) := [main_call1_v0, main_call1_v1, main_call1_cst, main_call1_v2, main_call1_v3, main_call1_cst_0, main_call1_v4, main_call1_v5, main_v28, main_v29, main_v30, main_v31, main_v32, main_v33, main_v34, main_v35, main_v36, main_v37, main_cst, main_v38, main_v39, main_v40, main_cst_3, main_v41, main_v42, main_v43]

theorem c3_writes : (c3 : List (HloOp τ sig (Elt F))).Forall fun op => op.writes ⊆ (ws3.map (Proc.devRef (τ := τ) .tc)).toFinset := by
  simp only [c3, List.Forall, nullary_writes, unary_writes, binary_writes, ternary_writes, reshape_writes, nary_writes,
    Finset.singleton_subset_iff, List.mem_toFinset]
  repeat' apply And.intro
  all_goals exact List.mem_map_of_mem (by decide)

/-- A buffer that stretch 3 does not write keeps its contents. -/
theorem c3_frame (W : Valuation τ sig (Elt F)) {r : Ref sig .tc} (hr : r ∉ ws3) :
    after c3 W (Proc.devRef .tc r) = W (Proc.devRef .tc r) :=
  after_of_writes_sub c3 W c3_writes hr

abbrev ws4 : List (Ref sig .tc) := [main_call2_v0, main_call2_v1, main_call2_cst, main_call2_v2, main_call2_v3, main_call2_cst_0, main_call2_v4, main_call2_v5, main_v44, main_v45, main_v46, main_v47, main_v48, main_v49]

theorem c4_writes : (c4 : List (HloOp τ sig (Elt F))).Forall fun op => op.writes ⊆ (ws4.map (Proc.devRef (τ := τ) .tc)).toFinset := by
  simp only [c4, List.Forall, nullary_writes, unary_writes, binary_writes, ternary_writes, reshape_writes, nary_writes,
    Finset.singleton_subset_iff, List.mem_toFinset]
  repeat' apply And.intro
  all_goals exact List.mem_map_of_mem (by decide)

/-- A buffer that stretch 4 does not write keeps its contents. -/
theorem c4_frame (W : Valuation τ sig (Elt F)) {r : Ref sig .tc} (hr : r ∉ ws4) :
    after c4 W (Proc.devRef .tc r) = W (Proc.devRef .tc r) :=
  after_of_writes_sub c4 W c4_writes hr

abbrev ws5 : List (Ref sig .tc) := [main_cst_4, main_v50, main_v51, main_cst_5, main_v52, main_v53, main_v54, main_v55, main_v56, main_cst_6, main_v57, main_v58, main_cst_7, main_v59, main_v60, main_v61, main_v62, main_v63, main_v64, main_v65, main_cst_8, main_v66, main_v67, main_v68, main_v69, main_v70, main_v71, main_v72, main_v73, main_v74]

theorem c5_writes : (c5 : List (HloOp τ sig (Elt F))).Forall fun op => op.writes ⊆ (ws5.map (Proc.devRef (τ := τ) .tc)).toFinset := by
  simp only [c5, List.Forall, nullary_writes, unary_writes, binary_writes, ternary_writes, reshape_writes, nary_writes,
    Finset.singleton_subset_iff, List.mem_toFinset]
  repeat' apply And.intro
  all_goals exact List.mem_map_of_mem (by decide)

/-- A buffer that stretch 5 does not write keeps its contents. -/
theorem c5_frame (W : Valuation τ sig (Elt F)) {r : Ref sig .tc} (hr : r ∉ ws5) :
    after c5 W (Proc.devRef .tc r) = W (Proc.devRef .tc r) :=
  after_of_writes_sub c5 W c5_writes hr

/-! ### Each stretch from any contents -/

set_option maxHeartbeats 4000000 in
/-- Stretch 1 (the two gathers and the concatenate) from any contents: the concatenate's buffer, and the edge sources. -/
theorem c1_v18 (W : Valuation τ sig (Elt F)) :
    after c1 W (Proc.devRef .tc main_v18) = val_main_v18 (F := F) (W (Proc.devRef .tc main_arg0)) (W (Proc.devRef .tc main_arg2)) (W (Proc.devRef .tc main_arg3)) := by
  unfold c1
  fold_results_simp
  rfl

set_option maxHeartbeats 4000000 in
theorem c1_v1 (W : Valuation τ sig (Elt F)) :
    after c1 W (Proc.devRef .tc main_v1) = val_main_v1 (F := F) (W (Proc.devRef .tc main_arg2)) := by
  unfold c1
  fold_results_simp
  rfl

set_option maxHeartbeats 4000000 in
/-- Stretch 2 (first dot, bias, silu, second dot, bias) from contents holding the concatenate: the message. -/
theorem c2_v27 (W : Valuation τ sig (Elt F)) (x0 : (⟨S20000x128, .f32⟩ : BufTy).Contents (Elt F)) (x2 : (⟨S2x640000, .i32⟩ : BufTy).Contents (Elt F)) (x3 : (⟨S640000x128, .f32⟩ : BufTy).Contents (Elt F))
    (h18 : W (Proc.devRef .tc main_v18) = val_main_v18 (F := F) x0 x2 x3) :
    after c2 W (Proc.devRef .tc main_v27) = val_main_v27 (F := F) x0 x2 x3 (W (Proc.devRef .tc main_arg5)) (W (Proc.devRef .tc main_arg6)) (W (Proc.devRef .tc main_arg7)) (W (Proc.devRef .tc main_arg8)) := by
  unfold c2
  fold_results_simp
  rw [h18]
  rfl

set_option maxHeartbeats 4000000 in
/-- Stretch 3 (silu, the gate, the outer product, both scatters) from contents holding the message and the edge
    sources: the two scattered sums. -/
theorem c3_v40 (W : Valuation τ sig (Elt F)) (x0 : (⟨S20000x128, .f32⟩ : BufTy).Contents (Elt F)) (x2 : (⟨S2x640000, .i32⟩ : BufTy).Contents (Elt F)) (x3 : (⟨S640000x128, .f32⟩ : BufTy).Contents (Elt F)) (x5 : (⟨S384x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h27 : W (Proc.devRef .tc main_v27) = val_main_v27 (F := F) x0 x2 x3 x5 x6 x7 x8)
    (h1 : W (Proc.devRef .tc main_v1) = val_main_v1 (F := F) x2) :
    after c3 W (Proc.devRef .tc main_v40) = val_main_v40 (F := F) x0 x2 x3 x5 x6 x7 x8 := by
  unfold c3
  fold_results_simp
  rw [h27, h1]
  rfl

set_option maxHeartbeats 4000000 in
theorem c3_v43 (W : Valuation τ sig (Elt F)) (x0 : (⟨S20000x128, .f32⟩ : BufTy).Contents (Elt F)) (x2 : (⟨S2x640000, .i32⟩ : BufTy).Contents (Elt F)) (x3 : (⟨S640000x128, .f32⟩ : BufTy).Contents (Elt F)) (x5 : (⟨S384x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h27 : W (Proc.devRef .tc main_v27) = val_main_v27 (F := F) x0 x2 x3 x5 x6 x7 x8)
    (h1 : W (Proc.devRef .tc main_v1) = val_main_v1 (F := F) x2) :
    after c3 W (Proc.devRef .tc main_v43) = val_main_v43 (F := F) x0 x2 x3 (W (Proc.devRef .tc main_arg4)) x5 x6 x7 x8 (W (Proc.devRef .tc main_arg11)) (W (Proc.devRef .tc main_arg12)) := by
  unfold c3
  fold_results_simp
  rw [h27, h1]
  rfl

set_option maxHeartbeats 4000000 in
/-- Stretch 4 (silu, the node dot, bias, the state added) from contents holding the scattered messages and the
    state: the state plus its update. -/
theorem c4_v49 (W : Valuation τ sig (Elt F)) (x0 : (⟨S20000x128, .f32⟩ : BufTy).Contents (Elt F)) (x2 : (⟨S2x640000, .i32⟩ : BufTy).Contents (Elt F)) (x3 : (⟨S640000x128, .f32⟩ : BufTy).Contents (Elt F)) (x5 : (⟨S384x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h40 : W (Proc.devRef .tc main_v40) = val_main_v40 (F := F) x0 x2 x3 x5 x6 x7 x8)
    (h0 : W (Proc.devRef .tc main_arg0) = x0) :
    after c4 W (Proc.devRef .tc main_v49) = val_main_v49 (F := F) x0 x2 x3 x5 x6 x7 x8 (W (Proc.devRef .tc main_arg9)) (W (Proc.devRef .tc main_arg10)) := by
  unfold c4
  fold_results_simp
  rw [h40, h0]
  rfl

set_option maxHeartbeats 4000000 in
/-- Stretch 5 (the normalisation, and the second output's sum) from contents holding the updated state and the
    scattered products: the two outputs. -/
theorem c5_v73 (W : Valuation τ sig (Elt F)) (x0 : (⟨S20000x128, .f32⟩ : BufTy).Contents (Elt F)) (x2 : (⟨S2x640000, .i32⟩ : BufTy).Contents (Elt F)) (x3 : (⟨S640000x128, .f32⟩ : BufTy).Contents (Elt F)) (x5 : (⟨S384x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F))
    (h49 : W (Proc.devRef .tc main_v49) = val_main_v49 (F := F) x0 x2 x3 x5 x6 x7 x8 x9 x10) :
    after c5 W (Proc.devRef .tc main_v73) = val_main_v73 (F := F) x0 x2 x3 x5 x6 x7 x8 x9 x10 (W (Proc.devRef .tc main_arg13)) (W (Proc.devRef .tc main_arg14)) := by
  unfold c5
  fold_results_simp
  rw [h49]
  rfl

set_option maxHeartbeats 4000000 in
theorem c5_v74 (W : Valuation τ sig (Elt F)) (x0 : (⟨S20000x128, .f32⟩ : BufTy).Contents (Elt F)) (x2 : (⟨S2x640000, .i32⟩ : BufTy).Contents (Elt F)) (x3 : (⟨S640000x128, .f32⟩ : BufTy).Contents (Elt F)) (x4 : (⟨S640000x3, .f32⟩ : BufTy).Contents (Elt F)) (x5 : (⟨S384x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x11 : (⟨S128x64, .f32⟩ : BufTy).Contents (Elt F)) (x12 : (⟨S64, .f32⟩ : BufTy).Contents (Elt F))
    (h43 : W (Proc.devRef .tc main_v43) = val_main_v43 (F := F) x0 x2 x3 x4 x5 x6 x7 x8 x11 x12) :
    after c5 W (Proc.devRef .tc main_v74) = val_main_v74 (F := F) x0 (W (Proc.devRef .tc main_arg1)) x2 x3 x4 x5 x6 x7 x8 x11 x12 := by
  unfold c5
  fold_results_simp
  rw [h43]
  rfl

/-! ### A buffer none of the first k stretches writes holds, after them, what it held at the start -/

theorem p1 {r : Ref sig .tc} (h1 : r ∉ ws1) : after c1 V (Proc.devRef .tc r) = V (Proc.devRef .tc r) := c1_frame V h1
theorem p2 {r : Ref sig .tc} (h1 : r ∉ ws1) (h2 : r ∉ ws2) : after c2 (after c1 V) (Proc.devRef .tc r) = V (Proc.devRef .tc r) :=
  (c2_frame _ h2).trans (p1 V h1)
theorem p3 {r : Ref sig .tc} (h1 : r ∉ ws1) (h2 : r ∉ ws2) (h3 : r ∉ ws3) : after c3 (after c2 (after c1 V)) (Proc.devRef .tc r) = V (Proc.devRef .tc r) :=
  (c3_frame _ h3).trans (p2 V h1 h2)
theorem p4 {r : Ref sig .tc} (h1 : r ∉ ws1) (h2 : r ∉ ws2) (h3 : r ∉ ws3) (h4 : r ∉ ws4) :
    after c4 (after c3 (after c2 (after c1 V))) (Proc.devRef .tc r) = V (Proc.devRef .tc r) :=
  (c4_frame _ h4).trans (p3 V h1 h2 h3)
theorem p5 {r : Ref sig .tc} (h1 : r ∉ ws1) (h2 : r ∉ ws2) (h3 : r ∉ ws3) (h4 : r ∉ ws4) (h5 : r ∉ ws5) :
    after c5 (after c4 (after c3 (after c2 (after c1 V)))) (Proc.devRef .tc r) = V (Proc.devRef .tc r) :=
  (c5_frame _ h5).trans (p4 V h1 h2 h3 h4)

/-! ### The crossing values after each stretch, as stage functions of the arguments -/

theorem s2_v27 : after c2 (after c1 V) (Proc.devRef .tc main_v27) = val_main_v27 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) := by
  rw [c2_v27 _ _ _ _ (c1_v18 V), p1 V (r := main_arg5) (by decide), p1 V (r := main_arg6) (by decide), p1 V (r := main_arg7) (by decide), p1 V (r := main_arg8) (by decide)]

theorem s2_v1 : after c2 (after c1 V) (Proc.devRef .tc main_v1) = val_main_v1 (F := F) (V (Proc.devRef .tc main_arg2)) :=
  (c2_frame _ (by decide)).trans (c1_v1 V)

theorem s3_v40 : after c3 (after c2 (after c1 V)) (Proc.devRef .tc main_v40) = val_main_v40 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) :=
  c3_v40 _ _ _ _ _ _ _ _ (s2_v27 V) (s2_v1 V)

theorem s3_v43 : after c3 (after c2 (after c1 V)) (Proc.devRef .tc main_v43) = val_main_v43 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) := by
  rw [c3_v43 _ _ _ _ _ _ _ _ (s2_v27 V) (s2_v1 V), p2 V (r := main_arg4) (by decide) (by decide), p2 V (r := main_arg11) (by decide) (by decide), p2 V (r := main_arg12) (by decide) (by decide)]

theorem s4_v49 : after c4 (after c3 (after c2 (after c1 V))) (Proc.devRef .tc main_v49) = val_main_v49 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [c4_v49 _ _ _ _ _ _ _ _ (s3_v40 V) (p3 V (r := main_arg0) (by decide) (by decide) (by decide)), p3 V (r := main_arg9) (by decide) (by decide) (by decide), p3 V (r := main_arg10) (by decide) (by decide) (by decide)]

theorem s4_v43 : after c4 (after c3 (after c2 (after c1 V))) (Proc.devRef .tc main_v43) = val_main_v43 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) :=
  (c4_frame _ (by decide)).trans (s3_v43 V)

/-- The whole run is the five stretches' folds, one after the other. -/
theorem after_ops : after ops V = after c5 (after c4 (after c3 (after c2 (after c1 V)))) := by
  rw [ops_eq, after_append, after_append, after_append, after_append]

theorem fold_v73 :
    after ops V (Proc.devRef .tc main_v73)
      = val_main_v73 (F := F) (V (Proc.devRef .tc main_arg0)) (V (Proc.devRef .tc main_arg2)) (V (Proc.devRef .tc main_arg3)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg13)) (V (Proc.devRef .tc main_arg14)) := by
  rw [after_ops, c5_v73 _ _ _ _ _ _ _ _ _ _ (s4_v49 V), p4 V (r := main_arg13) (by decide) (by decide) (by decide) (by decide), p4 V (r := main_arg14) (by decide) (by decide) (by decide) (by decide)]

theorem fold_v74 :
    after ops V (Proc.devRef .tc main_v74)
      = val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg11)) (V (Proc.devRef .tc main_arg12)) := by
  rw [after_ops, c5_v74 _ _ _ _ _ _ _ _ _ _ _ (s4_v43 V), p4 V (r := main_arg1) (by decide) (by decide) (by decide) (by decide)]

theorem fold_arg0 : after ops V (Proc.devRef .tc main_arg0) = V (Proc.devRef .tc main_arg0) := by
  rw [after_ops]; exact p5 V (r := main_arg0) (by decide) (by decide) (by decide) (by decide) (by decide)
theorem fold_arg1 : after ops V (Proc.devRef .tc main_arg1) = V (Proc.devRef .tc main_arg1) := by
  rw [after_ops]; exact p5 V (r := main_arg1) (by decide) (by decide) (by decide) (by decide) (by decide)
theorem fold_arg2 : after ops V (Proc.devRef .tc main_arg2) = V (Proc.devRef .tc main_arg2) := by
  rw [after_ops]; exact p5 V (r := main_arg2) (by decide) (by decide) (by decide) (by decide) (by decide)
theorem fold_arg3 : after ops V (Proc.devRef .tc main_arg3) = V (Proc.devRef .tc main_arg3) := by
  rw [after_ops]; exact p5 V (r := main_arg3) (by decide) (by decide) (by decide) (by decide) (by decide)
theorem fold_arg4 : after ops V (Proc.devRef .tc main_arg4) = V (Proc.devRef .tc main_arg4) := by
  rw [after_ops]; exact p5 V (r := main_arg4) (by decide) (by decide) (by decide) (by decide) (by decide)
theorem fold_arg5 : after ops V (Proc.devRef .tc main_arg5) = V (Proc.devRef .tc main_arg5) := by
  rw [after_ops]; exact p5 V (r := main_arg5) (by decide) (by decide) (by decide) (by decide) (by decide)
theorem fold_arg6 : after ops V (Proc.devRef .tc main_arg6) = V (Proc.devRef .tc main_arg6) := by
  rw [after_ops]; exact p5 V (r := main_arg6) (by decide) (by decide) (by decide) (by decide) (by decide)
theorem fold_arg7 : after ops V (Proc.devRef .tc main_arg7) = V (Proc.devRef .tc main_arg7) := by
  rw [after_ops]; exact p5 V (r := main_arg7) (by decide) (by decide) (by decide) (by decide) (by decide)
theorem fold_arg8 : after ops V (Proc.devRef .tc main_arg8) = V (Proc.devRef .tc main_arg8) := by
  rw [after_ops]; exact p5 V (r := main_arg8) (by decide) (by decide) (by decide) (by decide) (by decide)
theorem fold_arg9 : after ops V (Proc.devRef .tc main_arg9) = V (Proc.devRef .tc main_arg9) := by
  rw [after_ops]; exact p5 V (r := main_arg9) (by decide) (by decide) (by decide) (by decide) (by decide)
theorem fold_arg10 : after ops V (Proc.devRef .tc main_arg10) = V (Proc.devRef .tc main_arg10) := by
  rw [after_ops]; exact p5 V (r := main_arg10) (by decide) (by decide) (by decide) (by decide) (by decide)
theorem fold_arg11 : after ops V (Proc.devRef .tc main_arg11) = V (Proc.devRef .tc main_arg11) := by
  rw [after_ops]; exact p5 V (r := main_arg11) (by decide) (by decide) (by decide) (by decide) (by decide)
theorem fold_arg12 : after ops V (Proc.devRef .tc main_arg12) = V (Proc.devRef .tc main_arg12) := by
  rw [after_ops]; exact p5 V (r := main_arg12) (by decide) (by decide) (by decide) (by decide) (by decide)
theorem fold_arg13 : after ops V (Proc.devRef .tc main_arg13) = V (Proc.devRef .tc main_arg13) := by
  rw [after_ops]; exact p5 V (r := main_arg13) (by decide) (by decide) (by decide) (by decide) (by decide)
theorem fold_arg14 : after ops V (Proc.devRef .tc main_arg14) = V (Proc.devRef .tc main_arg14) := by
  rw [after_ops]; exact p5 V (r := main_arg14) (by decide) (by decide) (by decide) (by decide) (by decide)

end Cert.ReferenceIdeal.Fold

end
-- ==== Proof.Spec.lean ====
/-
  One message-passing layer over the extended reals, a row at a time.

  An edge `e` from node `r` to node `c` carries the message
      msg e = W2ᵀ · silu (W1aᵀ · s r + W1bᵀ · s c + W1cᵀ · a e + b1) + b2,
  where `W1a`, `W1b`, `W1c` are the three 128-row bands of the 384-row first weight, and the gate
      gate e = Wvᵀ · silu (msg e) + bv.
  A node with state `s` and gathered messages `so` is updated to the layer normalisation of
      mid = s + (Wsᵀ · silu so + bs):
  `γ · (mid - mean mid) · rsqrt (mean ((mid - mean mid)²) + ε) + β`, the mean a sum over the 128 features divided by 128.
  Every sum is a finite sum in the extended reals, `silu x = x · logistic x`.

  `dot_cat`: the product of the concatenation of three 128-vectors with a 384-row matrix is the sum of the three
  products with its bands, since a sum over 384 = 128 + 128 + 128 positions splits at 128 and 256.
-/
import Idealize.ShloMosaic.Lib.ValueIdx
import Idealize.ShloMosaic.PureOps.Ideal.Laws

noncomputable section

namespace Cert.Spec

open Idealize.ShloMosaic Idealize.ShloMosaic.ValueIdx

/-- An `a × b` array of extended reals. -/
abbrev Mat (a b : Nat) : Type := (⟨2, ![a, b]⟩ : Shape).Idx → EReal
/-- A vector of `a` extended reals. -/
abbrev Row (a : Nat) : Type := (⟨1, ![a]⟩ : Shape).Idx → EReal

/-- `x · σ(x)`, `σ` the logistic function. -/
def silu (x : EReal) : EReal := x * Ideal.logistic x

/-- The vector `x` against column `j` of `W`. -/
def dot {K N : Nat} (x : Fin K → EReal) (W : Mat K N) (j : Fin N) : EReal := ∑ k : Fin K, x k * W (ix2 k j)

/-- The band of 128 rows of a 384-row matrix that starts at row `o`. -/
def rows (o : Nat) (h : o + 128 ≤ 384) (W : Mat 384 128) : Mat 128 128 :=
  fun i => W (ix2 ⟨o + (i 0).val, by have h0 : (i 0).val < 128 := (i 0).isLt; omega⟩ (i 1))

/-- The edge network's hidden layer before its activation: three partial products and the bias. -/
def hid (sr sc ea : Fin 128 → EReal) (Wa Wb Wc : Mat 128 128) (b1 : Row 128) (j : Fin 128) : EReal :=
  ((dot sr Wa j + dot sc Wb j) + dot ea Wc j) + b1 (ix1 j)

/-- An edge's message. -/
def msg (sr sc ea : Fin 128 → EReal) (Wa Wb Wc : Mat 128 128) (b1 : Row 128) (W2 : Mat 128 128) (b2 : Row 128)
    (j : Fin 128) : EReal :=
  dot (fun k => silu (hid sr sc ea Wa Wb Wc b1 k)) W2 j + b2 (ix1 j)

/-- An edge's gate, from its message. -/
def gate (mrow : Fin 128 → EReal) (Wv : Mat 128 64) (bv : Row 64) (j : Fin 64) : EReal :=
  dot (fun k => silu (mrow k)) Wv j + bv (ix1 j)

/-- A node's state plus its update, before normalisation. -/
def mid (s so : Fin 128 → EReal) (Ws : Mat 128 128) (bs : Row 128) (j : Fin 128) : EReal :=
  s j + (dot (fun k => silu (so k)) Ws j + bs (ix1 j))

/-- The number of features, 128, as the float literal both programs divide by. -/
def c128 : EReal := Ideal.ofBits .f32 0x43000000#32
/-- The normalisation's `ε`, the float literal both programs add. -/
def eps : EReal := Ideal.ofBits .f32 0x3727C5AC#32

/-- The mean of 128 features. -/
def mean (x : Fin 128 → EReal) : EReal := Ideal.div (∑ k : Fin 128, x k) c128

/-- Layer normalisation of one row. -/
def norm (x : Fin 128 → EReal) (γ β : Row 128) (j : Fin 128) : EReal :=
  γ (ix1 j) * (x j - mean x) * Ideal.rsqrt (mean (fun k => (x k - mean x) * (x k - mean x)) + eps) + β (ix1 j)

/-- Row `p` of an array. -/
abbrev row {E D : Nat} (X : Mat E D) (p : Fin E) : Fin D → EReal := fun k => X (ix2 p k)

/-- Every edge's message, from the gathered source and target states and the edge attributes. -/
def msgArr {E : Nat} (SR SC EA : Mat E 128) (Wa Wb Wc : Mat 128 128) (b1 : Row 128) (W2 : Mat 128 128) (b2 : Row 128) :
    Mat E 128 :=
  fun i => msg (row SR (i 0)) (row SC (i 0)) (row EA (i 0)) Wa Wb Wc b1 W2 b2 (i 1)

/-- Every edge's gate, from the messages. -/
def gateArr {E : Nat} (Mg : Mat E 128) (Wv : Mat 128 64) (bv : Row 64) : Mat E 64 :=
  fun i => gate (row Mg (i 0)) Wv bv (i 1)

/-- Every node's new state. -/
def nodeArr {N : Nat} (S SO : Mat N 128) (Ws : Mat 128 128) (bs γ β : Row 128) : Mat N 128 :=
  fun i => norm (mid (row S (i 0)) (row SO (i 0)) Ws bs) γ β (i 1)

theorem msgArr_apply {E : Nat} (SR SC EA : Mat E 128) (Wa Wb Wc : Mat 128 128) (b1 : Row 128) (W2 : Mat 128 128) (b2 : Row 128)
    (p : Fin E) (q : Fin 128) :
    msgArr SR SC EA Wa Wb Wc b1 W2 b2 (ix2 p q) = msg (row SR p) (row SC p) (row EA p) Wa Wb Wc b1 W2 b2 q := rfl

theorem gateArr_apply {E : Nat} (Mg : Mat E 128) (Wv : Mat 128 64) (bv : Row 64) (p : Fin E) (q : Fin 64) :
    gateArr Mg Wv bv (ix2 p q) = gate (row Mg p) Wv bv q := rfl

theorem nodeArr_apply {N : Nat} (S SO : Mat N 128) (Ws : Mat 128 128) (bs γ β : Row 128) (p : Fin N) (q : Fin 128) :
    nodeArr S SO Ws bs γ β (ix2 p q) = norm (mid (row S p) (row SO p) Ws bs) γ β q := rfl

/-- The concatenation of three 128-vectors. -/
def cat3 (a b c : Fin 128 → EReal) : Fin 384 → EReal := fun k =>
  if h : k.val < 128 then a ⟨k.val, h⟩
  else if h' : k.val < 256 then b ⟨k.val - 128, by omega⟩
  else c ⟨k.val - 256, by have := k.isLt; omega⟩

/-- A sum over 384 positions splits at 128 and 256. -/
theorem sum_384 (f : Fin 384 → EReal) :
    ∑ k : Fin 384, f k = (∑ k : Fin 128, f ⟨k.val, by have := k.isLt; omega⟩
      + ∑ k : Fin 128, f ⟨128 + k.val, by have := k.isLt; omega⟩) + ∑ k : Fin 128, f ⟨256 + k.val, by have := k.isLt; omega⟩ := by
  have h0 : ∑ k : Fin 384, f k = ∑ k : Fin (128 + 128 + 128), f ⟨k.val, by have := k.isLt; omega⟩ := rfl
  have h := Fin.sum_univ_add (M := EReal) (a := 128 + 128) (b := 128) (fun k => f ⟨k.val, by have := k.isLt; omega⟩)
  have h' := Fin.sum_univ_add (M := EReal) (a := 128) (b := 128) (fun k => f ⟨k.val, by have := k.isLt; omega⟩)
  refine h0.trans (h.trans ?_)
  refine congrArg₂ (· + ·) (h'.trans ?_) ?_
  · rfl
  · rfl

theorem cat3_lo (a b c : Fin 128 → EReal) (k : Fin 128) (h : k.val < 384) : cat3 a b c ⟨k.val, h⟩ = a k := by
  unfold cat3
  exact dif_pos k.isLt

theorem cat3_mid (a b c : Fin 128 → EReal) (k : Fin 128) (h : 128 + k.val < 384) : cat3 a b c ⟨128 + k.val, h⟩ = b k := by
  have hk := k.isLt
  unfold cat3
  rw [dif_neg (show ¬ ((⟨128 + k.val, h⟩ : Fin 384).val < 128) from by show ¬ (128 + k.val < 128); omega),
    dif_pos (show (⟨128 + k.val, h⟩ : Fin 384).val < 256 from by show 128 + k.val < 256; omega)]
  exact congrArg b (Fin.ext (by show 128 + k.val - 128 = k.val; omega))

theorem cat3_hi (a b c : Fin 128 → EReal) (k : Fin 128) (h : 256 + k.val < 384) : cat3 a b c ⟨256 + k.val, h⟩ = c k := by
  have hk := k.isLt
  unfold cat3
  rw [dif_neg (show ¬ ((⟨256 + k.val, h⟩ : Fin 384).val < 128) from by show ¬ (256 + k.val < 128); omega),
    dif_neg (show ¬ ((⟨256 + k.val, h⟩ : Fin 384).val < 256) from by show ¬ (256 + k.val < 256); omega)]
  exact congrArg c (Fin.ext (by show 256 + k.val - 256 = k.val; omega))

/-- The concatenated vector against a 384-row matrix is the sum of the three vectors against its bands. -/
theorem dot_cat (a b c : Fin 128 → EReal) (W : Mat 384 128) (j : Fin 128) :
    dot (cat3 a b c) W j
      = (dot a (rows 0 (by omega) W) j + dot b (rows 128 (by omega) W) j) + dot c (rows 256 (by omega) W) j := by
  unfold dot
  rw [sum_384]
  refine congrArg₂ (· + ·) (congrArg₂ (· + ·) ?_ ?_) ?_
  · refine Finset.sum_congr rfl fun k _ => ?_
    rw [cat3_lo]
    refine congrArg (a k * ·) (congrArg W (funext fun d => ?_))
    match d with
    | ⟨0, _⟩ => exact Fin.ext (by show k.val = 0 + k.val; omega)
    | ⟨1, _⟩ => rfl
  · refine Finset.sum_congr rfl fun k _ => ?_
    rw [cat3_mid]
    rfl
  · refine Finset.sum_congr rfl fun k _ => ?_
    rw [cat3_hi]
    rfl

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.RefValue.lean ====
/-
  The reference program's stages, read at an entry, are the row-wise specification.

  Each stage is one array operation of the reference; read at an index it is a sum, a product or a broadcast of its
  operands at indices. Three facts are proved, each by reading the stages between two named arrays one entry at a time:
  * the message array is `msgArr` of the two gathered state arrays and the edge attributes: the concatenated row against
    the 384-row weight is the three rows against its three 128-row bands (`dot_cat`), then bias, silu, the second
    weight and bias;
  * the gate array is `gateArr` of the messages: silu, one product with the gate weight, one bias;
  * the new node states are `nodeArr` of the states and the scattered messages: silu, a product, a bias, the residual
    sum, then the layer normalisation (row mean as a sum over 128, centred row, mean of squares, `ε`, inverse square
    root, scale and shift).
  The expansion `x · (1 / (1 + exp (-x)))` is `x · logistic x` because the logistic function is defined as that quotient,
  and a float sum's initial value is zero.
-/
import proofs.«146238_j65618510349072_1_alg».proof.Proof.RefStages
import proofs.«146238_j65618510349072_1_alg».proof.Proof.Spec
import proofs.«146238_j65618510349072_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Stage Idealize.ShloMosaic Idealize.ShloMosaic.TcCoe Idealize.ShloMosaic.ValueIdx

variable (x0 : (⟨S20000x128, .f32⟩ : BufTy).Contents (Elt Ideal)) (x2 : (⟨S2x640000, .i32⟩ : BufTy).Contents (Elt Ideal)) (x3 : (⟨S640000x128, .f32⟩ : BufTy).Contents (Elt Ideal))
  (x5 : (⟨S384x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
  (x9 : (⟨S128x128, .f32⟩ : BufTy).Contents (Elt Ideal)) (x10 x13 x14 : (⟨S128, .f32⟩ : BufTy).Contents (Elt Ideal)) (x11 : (⟨S128x64, .f32⟩ : BufTy).Contents (Elt Ideal)) (x12 : (⟨S64, .f32⟩ : BufTy).Contents (Elt Ideal))

/-- The float literal `1.0` is the extended real one. -/
theorem one_f32 : Ideal.ofBits .f32 0x3F800000#32 = 1 := by
  simp [Ideal.ofBits, Ideal.ieee, -EReal.coe_mul]; norm_num

/-- The expansion `x · (1 / (1 + exp (-x)))` of silu is `x · logistic x`. -/
theorem silu_expand (x : EReal) :
    x * Ideal.div (Ideal.ofBits .f32 0x3F800000#32) (Ideal.ofBits .f32 0x3F800000#32 + Ideal.exp (-x)) = Cert.Spec.silu x := by
  rw [one_f32]; rfl

/-- The second activation, entrywise: silu of the message. -/
theorem v28_eq (j : S640000x128.Idx) :
    val_main_v28 (F := Ideal) x0 x2 x3 x5 x6 x7 x8 j = Cert.Spec.silu (val_main_v27 (F := Ideal) x0 x2 x3 x5 x6 x7 x8 j) := by
  rw [val_main_v28_apply, val_main_call1_v5_apply, val_main_call1_v4_apply, val_main_call1_cst_0_apply,
    val_main_call1_v3_apply, val_main_call1_v2_apply, val_main_call1_cst_apply, val_main_call1_v1_apply, val_main_call1_v0_apply]
  exact silu_expand _

/-- A row of the concatenated array is the concatenation of the three rows: a column below 128 reads the first piece,
    one below 256 the second, any other the third. -/
theorem v18_row (p : Fin 640000) :
    Cert.Spec.row (val_main_v18 (F := Ideal) x0 x2 x3) p
      = Cert.Spec.cat3 (Cert.Spec.row (val_main_v10 (F := Ideal) x0 x2) p) (Cert.Spec.row (val_main_v17 (F := Ideal) x0 x2) p)
          (Cert.Spec.row x3 p) := by
  funext c
  unfold val_main_v18
  generalize val_main_v10 (F := Ideal) x0 x2 = A
  generalize val_main_v17 (F := Ideal) x0 x2 = B
  have hc := c.isLt
  unfold Cert.Spec.cat3
  by_cases h1 : c.val < 128
  · rw [dif_pos h1]
    exact concatenate_apply_piece (1 : Fin S640000x384.rank) _ _ (ix2 p c) 0 (by show (0 : Nat) < 3; decide) S640000x128 A rfl rfl 0 rfl
      (ix2 p ⟨c.val, h1⟩)
      (fun b hb => by match b with | ⟨0, _⟩ => rfl | ⟨1, _⟩ => exact absurd rfl hb)
      (by show 0 + c.val = c.val; omega)
  · rw [dif_neg h1]
    by_cases h2 : c.val < 256
    · rw [dif_pos h2]
      exact concatenate_apply_piece (1 : Fin S640000x384.rank) _ _ (ix2 p c) 1 (by show (1 : Nat) < 3; decide) S640000x128 B rfl rfl 128 rfl
        (ix2 p ⟨c.val - 128, by omega⟩)
        (fun b hb => by match b with | ⟨0, _⟩ => rfl | ⟨1, _⟩ => exact absurd rfl hb)
        (by show 128 + (c.val - 128) = c.val; omega)
    · rw [dif_neg h2]
      exact concatenate_apply_piece (1 : Fin S640000x384.rank) _ _ (ix2 p c) 2 (by show (2 : Nat) < 3; decide) S640000x128 x3 rfl rfl 256 rfl
        (ix2 p ⟨c.val - 256, by omega⟩)
        (fun b hb => by match b with | ⟨0, _⟩ => rfl | ⟨1, _⟩ => exact absurd rfl hb)
        (by show 256 + (c.val - 256) = c.val; omega)

/-- The hidden layer before its activation: the concatenated row against the 384-row weight is the three rows against
    its three bands. -/
theorem v22_eq (p : Fin 640000) (k : Fin 128) :
    val_main_v22 (F := Ideal) x0 x2 x3 x5 x6 (ix2 p k)
      = Cert.Spec.hid (Cert.Spec.row (val_main_v10 (F := Ideal) x0 x2) p) (Cert.Spec.row (val_main_v17 (F := Ideal) x0 x2) p)
          (Cert.Spec.row x3 p) (Cert.Spec.rows 0 (by omega) x5) (Cert.Spec.rows 128 (by omega) x5) (Cert.Spec.rows 256 (by omega) x5) x6 k := by
  rw [val_main_v22_apply, val_main_v19_apply, val_main_v21_apply, val_main_v20_apply]
  unfold Cert.Spec.hid
  rw [← Cert.Spec.dot_cat, ← v18_row]
  unfold Cert.Spec.dot
  refine congrArg₂ (· + ·) (Finset.sum_congr rfl fun c _ => ?_) ?_
  · have el : lidx_main_v19 (ix2 p k) c = ix2 p c := funext fun a => Fin.ext (by match a with | ⟨0, _⟩ => rfl | ⟨1, _⟩ => rfl)
    have er : ridx_main_v19 (ix2 p k) c = ix2 c k := funext fun a => Fin.ext (by match a with | ⟨0, _⟩ => rfl | ⟨1, _⟩ => rfl)
    rw [el, er]
  · exact congrArg x6 (funext fun a => Fin.ext (by match a with | ⟨0, _⟩ => rfl))

/-- The first activation, entrywise: silu of the hidden layer. -/
theorem v23_eq (j : S640000x128.Idx) :
    val_main_v23 (F := Ideal) x0 x2 x3 x5 x6 j = Cert.Spec.silu (val_main_v22 (F := Ideal) x0 x2 x3 x5 x6 j) := by
  rw [val_main_v23_apply, val_main_call0_v5_apply, val_main_call0_v4_apply, val_main_call0_cst_0_apply,
    val_main_call0_v3_apply, val_main_call0_v2_apply, val_main_call0_cst_apply, val_main_call0_v1_apply, val_main_call0_v0_apply]
  generalize val_main_v22 (F := Ideal) x0 x2 x3 x5 x6 j = y
  exact silu_expand y

/-- The node activation, entrywise: silu of the gathered messages. -/
theorem v44_eq (j : S20000x128.Idx) :
    val_main_v44 (F := Ideal) x0 x2 x3 x5 x6 x7 x8 j = Cert.Spec.silu (val_main_v40 (F := Ideal) x0 x2 x3 x5 x6 x7 x8 j) := by
  rw [val_main_v44_apply, val_main_call2_v5_apply, val_main_call2_v4_apply, val_main_call2_cst_0_apply,
    val_main_call2_v3_apply, val_main_call2_v2_apply, val_main_call2_cst_apply, val_main_call2_v1_apply, val_main_call2_v0_apply]
  generalize val_main_v40 (F := Ideal) x0 x2 x3 x5 x6 x7 x8 j = y
  exact silu_expand y

/-- The state plus its update, before normalisation, at an entry. -/
theorem v49_eq (p : Fin 20000) (q : Fin 128) :
    val_main_v49 (F := Ideal) x0 x2 x3 x5 x6 x7 x8 x9 x10 (ix2 p q)
      = Cert.Spec.mid (Cert.Spec.row x0 p) (Cert.Spec.row (val_main_v40 (F := Ideal) x0 x2 x3 x5 x6 x7 x8) p) x9 x10 q := by
  rw [val_main_v49_apply, val_main_v48_apply, val_main_v45_apply, val_main_v47_apply, val_main_v46_apply]
  unfold Cert.Spec.mid Cert.Spec.dot
  refine congrArg₂ (· + ·) rfl (congrArg₂ (· + ·) (Finset.sum_congr rfl fun k _ => ?_) ?_)
  · rw [v44_eq]
    have el : lidx_main_v45 (ix2 p q) k = ix2 p k := funext fun a => Fin.ext (by match a with | ⟨0, _⟩ => rfl | ⟨1, _⟩ => rfl)
    have er : ridx_main_v45 (ix2 p q) k = ix2 k q := funext fun a => Fin.ext (by match a with | ⟨0, _⟩ => rfl | ⟨1, _⟩ => rfl)
    rw [el, er]
  · exact congrArg x10 (funext fun a => Fin.ext (by match a with | ⟨0, _⟩ => rfl))

/-- The row mean: the row's sum over 128. -/
theorem v53_eq (p : Fin 20000) (z : Fin 1) :
    val_main_v53 (F := Ideal) x0 x2 x3 x5 x6 x7 x8 x9 x10 (ix2 p z)
      = Cert.Spec.mean (fun k => val_main_v49 (F := Ideal) x0 x2 x3 x5 x6 x7 x8 x9 x10 (ix2 p k)) := by
  rw [val_main_v53_apply, val_main_v51_apply, val_main_v50_apply, val_main_v52_apply, val_main_cst_5_apply, val_main_cst_4_apply]
  have e : ∀ k : Fin 128, idx_main_v50 (idx_main_v51 (ix2 p z)) k = ix2 p k :=
    fun k => funext fun a => Fin.ext (by match a with | ⟨0, _⟩ => rfl | ⟨1, _⟩ => rfl)
  simp only [e, Ideal.hostDivf_def, Ideal.ofBits_def, Ideal.ofBits_zero_f32, zero_add]
  rfl

/-- The centred state at an entry (the reference computes it twice). -/
theorem v55_eq (p : Fin 20000) (q : Fin 128) :
    val_main_v55 (F := Ideal) x0 x2 x3 x5 x6 x7 x8 x9 x10 (ix2 p q)
      = val_main_v49 (F := Ideal) x0 x2 x3 x5 x6 x7 x8 x9 x10 (ix2 p q)
        - Cert.Spec.mean (fun k => val_main_v49 (F := Ideal) x0 x2 x3 x5 x6 x7 x8 x9 x10 (ix2 p k)) := by
  rw [val_main_v55_apply, val_main_v54_apply]
  have e : idx_main_v54 (ix2 p q) = ix2 p (0 : Fin 1) :=
    funext fun a => Fin.ext (by match a with | ⟨0, _⟩ => rfl | ⟨1, _⟩ => rfl)
  rw [e, v53_eq]
  rfl

theorem v62_eq (p : Fin 20000) (q : Fin 128) :
    val_main_v62 (F := Ideal) x0 x2 x3 x5 x6 x7 x8 x9 x10 (ix2 p q)
      = val_main_v49 (F := Ideal) x0 x2 x3 x5 x6 x7 x8 x9 x10 (ix2 p q)
        - Cert.Spec.mean (fun k => val_main_v49 (F := Ideal) x0 x2 x3 x5 x6 x7 x8 x9 x10 (ix2 p k)) := by
  rw [val_main_v62_apply, val_main_v61_apply]
  have e : idx_main_v61 (ix2 p q) = ix2 p (0 : Fin 1) :=
    funext fun a => Fin.ext (by match a with | ⟨0, _⟩ => rfl | ⟨1, _⟩ => rfl)
  rw [e, v53_eq]
  rfl

/-- The row variance: the mean of the squared centred state. -/
theorem v60_eq (p : Fin 20000) (z : Fin 1) :
    val_main_v60 (F := Ideal) x0 x2 x3 x5 x6 x7 x8 x9 x10 (ix2 p z)
      = Cert.Spec.mean (fun k =>
          (val_main_v49 (F := Ideal) x0 x2 x3 x5 x6 x7 x8 x9 x10 (ix2 p k)
            - Cert.Spec.mean (fun k => val_main_v49 (F := Ideal) x0 x2 x3 x5 x6 x7 x8 x9 x10 (ix2 p k)))
          * (val_main_v49 (F := Ideal) x0 x2 x3 x5 x6 x7 x8 x9 x10 (ix2 p k)
            - Cert.Spec.mean (fun k => val_main_v49 (F := Ideal) x0 x2 x3 x5 x6 x7 x8 x9 x10 (ix2 p k)))) := by
  rw [val_main_v60_apply, val_main_v58_apply, val_main_v57_apply, val_main_v59_apply, val_main_cst_7_apply, val_main_cst_6_apply]
  have e : ∀ k : Fin 128, idx_main_v57 (idx_main_v58 (ix2 p z)) k = ix2 p k :=
    fun k => funext fun a => Fin.ext (by match a with | ⟨0, _⟩ => rfl | ⟨1, _⟩ => rfl)
  simp only [e, val_main_v56_apply, v55_eq, Ideal.hostDivf_def, Ideal.ofBits_def, Ideal.ofBits_zero_f32, zero_add, Ideal.mulf_def]
  rfl

theorem ref_msg :
    val_main_v27 (F := Ideal) x0 x2 x3 x5 x6 x7 x8
      = Cert.Spec.msgArr (val_main_v10 (F := Ideal) x0 x2) (val_main_v17 (F := Ideal) x0 x2) x3
          (Cert.Spec.rows 0 (by omega) x5) (Cert.Spec.rows 128 (by omega) x5) (Cert.Spec.rows 256 (by omega) x5) x6 x7 x8 := by
  funext i
  obtain ⟨p, q, rfl⟩ : ∃ (p : Fin 640000) (q : Fin 128), i = ix2 p q := ⟨i 0, i 1, eq_ix2 i⟩
  rw [Cert.Spec.msgArr_apply, val_main_v27_apply, val_main_v24_apply, val_main_v26_apply, val_main_v25_apply]
  unfold Cert.Spec.msg Cert.Spec.dot
  refine congrArg₂ (· + ·) (Finset.sum_congr rfl fun k _ => ?_) ?_
  · have el : lidx_main_v24 (ix2 p q) k = ix2 p k := funext fun a => Fin.ext (by match a with | ⟨0, _⟩ => rfl | ⟨1, _⟩ => rfl)
    have er : ridx_main_v24 (ix2 p q) k = ix2 k q := funext fun a => Fin.ext (by match a with | ⟨0, _⟩ => rfl | ⟨1, _⟩ => rfl)
    rw [el, er, v23_eq, v22_eq]
  · exact congrArg x8 (funext fun a => Fin.ext (by match a with | ⟨0, _⟩ => rfl))

theorem ref_gate :
    val_main_v32 (F := Ideal) x0 x2 x3 x5 x6 x7 x8 x11 x12
      = Cert.Spec.gateArr (val_main_v27 (F := Ideal) x0 x2 x3 x5 x6 x7 x8) x11 x12 := by
  funext i
  obtain ⟨p, q, rfl⟩ : ∃ (p : Fin 640000) (q : Fin 64), i = ix2 p q := ⟨i 0, i 1, eq_ix2 i⟩
  rw [Cert.Spec.gateArr_apply, val_main_v32_apply, val_main_v29_apply, val_main_v31_apply, val_main_v30_apply]
  unfold Cert.Spec.gate Cert.Spec.dot
  refine congrArg₂ (· + ·) (Finset.sum_congr rfl fun k _ => ?_) ?_
  · rw [v28_eq]
    have el : lidx_main_v29 (ix2 p q) k = ix2 p k := funext fun a => Fin.ext (by match a with | ⟨0, _⟩ => rfl | ⟨1, _⟩ => rfl)
    have er : ridx_main_v29 (ix2 p q) k = ix2 k q := funext fun a => Fin.ext (by match a with | ⟨0, _⟩ => rfl | ⟨1, _⟩ => rfl)
    rw [el, er]
  · exact congrArg x12 (funext fun a => Fin.ext (by match a with | ⟨0, _⟩ => rfl))

theorem ref_node :
    val_main_v73 (F := Ideal) x0 x2 x3 x5 x6 x7 x8 x9 x10 x13 x14
      = Cert.Spec.nodeArr x0 (val_main_v40 (F := Ideal) x0 x2 x3 x5 x6 x7 x8) x9 x10 x13 x14 := by
  funext i
  obtain ⟨p, q, rfl⟩ : ∃ (p : Fin 20000) (q : Fin 128), i = ix2 p q := ⟨i 0, i 1, eq_ix2 i⟩
  rw [Cert.Spec.nodeArr_apply]
  have hX : (fun k => val_main_v49 (F := Ideal) x0 x2 x3 x5 x6 x7 x8 x9 x10 (ix2 p k))
      = Cert.Spec.mid (Cert.Spec.row x0 p) (Cert.Spec.row (val_main_v40 (F := Ideal) x0 x2 x3 x5 x6 x7 x8) p) x9 x10 :=
    funext fun k => v49_eq x0 x2 x3 x5 x6 x7 x8 x9 x10 p k
  rw [← hX]
  rw [val_main_v73_apply, val_main_v70_apply, val_main_v65_apply, val_main_v64_apply, val_main_v63_apply, v62_eq,
    val_main_v69_apply, val_main_v68_apply, val_main_v67_apply, val_main_v66_apply, val_main_cst_8_apply,
    val_main_v72_apply, val_main_v71_apply]
  have e : idx_main_v69 (ix2 p q) = ix2 p (0 : Fin 1) :=
    funext fun a => Fin.ext (by match a with | ⟨0, _⟩ => rfl | ⟨1, _⟩ => rfl)
  rw [e, v60_eq]
  unfold Cert.Spec.norm
  refine congrArg₂ (· + ·) (congrArg₂ (· * ·) (congrArg₂ (· * ·) ?_ rfl) rfl) ?_
  · exact congrArg x13 (funext fun a => Fin.ext (by match a with | ⟨0, _⟩ => rfl))
  · exact congrArg x14 (funext fun a => Fin.ext (by match a with | ⟨0, _⟩ => rfl))

end Cert.ReferenceIdeal.RefValue

end
-- ==== Proof.EdgeRegion.lean ====
/-
  The edge network's kernel region, read as whole arrays.

  The region's grid has 128 points. At point `t` the body reads rows `5000 t … 5000 t + 4999` of the three edge
  inputs (gathered source states, gathered target states, edge attributes) and all of every weight and bias, and
  stores, for each of its 5000 rows `p`,
      message p = W2ᵀ · silu (W1aᵀ · s p + W1bᵀ · s' p + W1cᵀ · a p + b1) + b2      (128 entries)
      gate p    = Wvᵀ · silu (message p) + bv                                        (64 entries)
  into rows `5000 t + p` of the two output arrays. Here:
  * the body's arithmetic at an entry `(p, q)`: each matrix product into the zero accumulator is a finite sum over
    128 positions, the bias row is repeated over the rows, the roundings are the identity on the extended reals, so
    the stored values are `Spec.msg` and `Spec.gate` of row `p` of the blocks (`pay_msg`, `pay_gate`);
  * each input block as rows of its array, each weight block as its whole array (`blk0_apply` … `blk10_eq`), from
    the windows' index maps over the grid (`idx_facts`);
  * so what point `t` writes back is block `t` of one function of the entry arrays, `Spec.msgArr` resp.
    `Spec.gateArr` (`flushed_msg`, `flushed_gate`);
  * edge row `r` lies in the block of point `r / 5000` (`cover_msg`, `cover_gate`), so after the run the two output
    arrays hold those functions (`arr_msg`, `arr_gate`).
-/
import proofs.«146238_j65618510349072_1_alg».proof.Proof.Gen.KernelIdeal.Frame
import proofs.«146238_j65618510349072_1_alg».proof.Proof.Spec
import proofs.«146238_j65618510349072_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Edge

open Cert.KernelIdeal Cert.KernelIdeal.Gen Idealize.ShloMosaic Idealize.ShloMosaic.TcCoe Idealize.ShloMosaic.ValueIdx Idealize.SL.Sem
open Idealize.ShloMosaic.Pipeline (Dat Cfg Window)

section Payload

/-- A 5000×128 by 128×128 product into the zero accumulator, at an entry. -/
theorem lin128_apply (x : FVec Ideal S5000x128 .bf16) (W : FVec Ideal S128x128 .bf16) (p : Fin 5000) (q : Fin 128) :
    matmul dot_S5000x128_S128x128_S5000x128_1_0_0_1_n_n none x W (constant (F := Ideal) S5000x128 .f32 0x00000000#32) (ix2 p q)
      = Cert.Spec.dot (fun k => x (ix2 p k)) W q :=
  Cert.Lib.PlainDot.matmul_zero_apply (M := 5000) (K := 128) (N := 128) none x W p q

theorem lin64_apply (x : FVec Ideal S5000x128 .bf16) (W : FVec Ideal S128x64 .bf16) (p : Fin 5000) (q : Fin 64) :
    matmul dot_S5000x128_S128x64_S5000x64_1_0_0_1_n_n none x W (constant (F := Ideal) S5000x64 .f32 0x00000000#32) (ix2 p q)
      = Cert.Spec.dot (fun k => x (ix2 p k)) W q :=
  Cert.Lib.PlainDot.matmul_zero_apply (M := 5000) (K := 128) (N := 64) none x W p q

/-- A bias row [128] laid out as [1,128] and repeated over 5000 rows, at an entry. -/
theorem bias128_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

theorem bias64_apply (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

variable (x0 x1 x2 : Vec Ideal S5000x128 .bf16) (x3 x4 x5 : Vec Ideal S128x128 .bf16) (x6 : Vec Ideal S128 .f32)
  (x7 : Vec Ideal S128x128 .bf16) (x8 : Vec Ideal S128 .f32) (x9 : Vec Ideal S128x64 .bf16) (x10 : Vec Ideal S64 .f32)

/-- The body's hidden layer before its activation: three products added, and the bias row. -/
abbrev hidK : FVec Ideal S5000x128 .f32 :=
  addf
    (addf
      (addf (matmul (φ₁ := .bf16) (φ₂ := .bf16) dot_S5000x128_S128x128_S5000x128_1_0_0_1_n_n none x0 x3 (constant S5000x128 .f32 0x00000000#32))
        (matmul (φ₁ := .bf16) (φ₂ := .bf16) dot_S5000x128_S128x128_S5000x128_1_0_0_1_n_n none x1 x4 (constant S5000x128 .f32 0x00000000#32)))
      (matmul (φ₁ := .bf16) (φ₂ := .bf16) dot_S5000x128_S128x128_S5000x128_1_0_0_1_n_n none x2 x5 (constant S5000x128 .f32 0x00000000#32)))
    (broadcastTo S5000x128 (shapeCast S1x128 x6 shapeCasts_S128_S1x128) broadcasts_S1x128_S5000x128)

theorem hidK_apply (p : Fin 5000) (k : Fin 128) :
    hidK x0 x1 x2 x3 x4 x5 x6 (ix2 p k)
      = Cert.Spec.hid (Cert.Spec.row x0 p) (Cert.Spec.row x1 p) (Cert.Spec.row x2 p) x3 x4 x5 x6 k := by
  unfold Cert.Spec.hid
  exact congrArg₂ (· + ·)
    (congrArg₂ (· + ·) (congrArg₂ (· + ·) (lin128_apply x0 x3 p k) (lin128_apply x1 x4 p k)) (lin128_apply x2 x5 p k))
    (bias128_apply x6 p k)

/-- The activated value `x · σ(x)`, rounded (the identity here), at an entry. -/
theorem act_apply (v : FVec Ideal S5000x128 .f32) (j : S5000x128.Idx) :
    truncf .bf16 (mulf v (logistic v)) bitsLt_bf16_f32 j = Cert.Spec.silu (v j) := rfl

/-- The message the body stores, at an entry. -/
theorem pay_msg (p : Fin 5000) (q : Fin 128) :
    k0_pay2 x0 x1 x2 x3 x4 x5 x6 x7 x8 (ix2 p q)
      = Cert.Spec.msg (Cert.Spec.row x0 p) (Cert.Spec.row x1 p) (Cert.Spec.row x2 p) x3 x4 x5 x6 x7 x8 q := by
  unfold k0_pay2
  simp only [shapeCast_self]
  unfold Cert.Spec.msg
  refine congrArg₂ (· + ·) ((lin128_apply _ x7 p q).trans ?_) (bias128_apply x8 p q)
  refine congrArg (fun f => Cert.Spec.dot f x7 q) (funext fun k => ?_)
  exact (act_apply _ (ix2 p k)).trans (congrArg Cert.Spec.silu (hidK_apply x0 x1 x2 x3 x4 x5 x6 p k))

/-- The activated message the gate reads, at an entry. -/
theorem pay_act (p : Fin 5000) (k : Fin 128) :
    k0_pay3 x0 x1 x2 x3 x4 x5 x6 x7 x8 (ix2 p k) = Cert.Spec.silu (k0_pay2 x0 x1 x2 x3 x4 x5 x6 x7 x8 (ix2 p k)) := by
  unfold k0_pay3
  exact act_apply _ _

/-- The gate the body stores, at an entry, from the message's row. -/
theorem pay_gate (p : Fin 5000) (q : Fin 64) :
    k0_pay1 (k0_pay3 x0 x1 x2 x3 x4 x5 x6 x7 x8) x9 x10 (ix2 p q)
      = Cert.Spec.gate (fun k => k0_pay2 x0 x1 x2 x3 x4 x5 x6 x7 x8 (ix2 p k)) x9 x10 q := by
  unfold k0_pay1
  simp only [shapeCast_self]
  unfold Cert.Spec.gate
  refine congrArg₂ (· + ·) ((lin64_apply _ x9 p q).trans ?_) (bias64_apply x10 p q)
  exact congrArg (fun f => Cert.Spec.dot f x9 q) (funext fun k => pay_act x0 x1 x2 x3 x4 x5 x6 x7 x8 p k)

end Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The windows' index maps at every point of the grid: the three edge inputs and the two outputs are at block row `t`,
    column block 0; every weight and bias is at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Window 0's block at point `t` is rows `5000 t … 5000 t + 4999` of its array. -/
theorem blk0_apply (c : Dev nD) (t : Fin cfg0.N) (p : Fin 5000) (k : Fin 128) (r : Fin 640000)
    (hr : r.val = t.val * 5000 + p.val) :
    (iblk0 V c 0 t : Vec Ideal S5000x128 .bf16) (ix2 p k) = (V c main_v12 : S640000x128.Idx → EReal) (ix2 r k) := by
  obtain ⟨⟨e0, e1⟩, -⟩ := idx_facts t
  unfold iblk0
  rw [View.read_apply]
  show V c main_v12 _ = V c main_v12 _
  refine congrArg (V c main_v12) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1's block at point `t` is rows `5000 t … 5000 t + 4999` of its array. -/
theorem blk1_apply (c : Dev nD) (t : Fin cfg0.N) (p : Fin 5000) (k : Fin 128) (r : Fin 640000)
    (hr : r.val = t.val * 5000 + p.val) :
    (iblk0 V c 1 t : Vec Ideal S5000x128 .bf16) (ix2 p k) = (V c main_v19 : S640000x128.Idx → EReal) (ix2 r k) := by
  obtain ⟨-, ⟨e0, e1⟩, -⟩ := idx_facts t
  unfold iblk0
  rw [View.read_apply]
  show V c main_v19 _ = V c main_v19 _
  refine congrArg (V c main_v19) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2's block at point `t` is rows `5000 t … 5000 t + 4999` of its array. -/
theorem blk2_apply (c : Dev nD) (t : Fin cfg0.N) (p : Fin 5000) (k : Fin 128) (r : Fin 640000)
    (hr : r.val = t.val * 5000 + p.val) :
    (iblk0 V c 2 t : Vec Ideal S5000x128 .bf16) (ix2 p k) = (V c main_v5 : S640000x128.Idx → EReal) (ix2 r k) := by
  obtain ⟨-, -, ⟨e0, e1⟩, -⟩ := idx_facts t
  unfold iblk0
  rw [View.read_apply]
  show V c main_v5 _ = V c main_v5 _
  refine congrArg (V c main_v5) (funext fun a => Fin.ext ?_)
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- Window 3's block at every point is its whole array. -/
theorem blk3_eq (c : Dev nD) (t : Fin cfg0.N) :
    (iblk0 V c 3 t : Vec Ideal S128x128 .bf16) = (V c main_v21 : S128x128.Idx → EReal) := by
  obtain ⟨-, -, -, ⟨e0, e1⟩, -⟩ := idx_facts t
  funext y
  unfold iblk0
  rw [View.read_apply]
  show V c main_v21 _ = V c main_v21 _
  refine congrArg (V c main_v21) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- Window 4's block at every point is its whole array. -/
theorem blk4_eq (c : Dev nD) (t : Fin cfg0.N) :
    (iblk0 V c 4 t : Vec Ideal S128x128 .bf16) = (V c main_v23 : S128x128.Idx → EReal) := by
  obtain ⟨-, -, -, -, ⟨e0, e1⟩, -⟩ := idx_facts t
  funext y
  unfold iblk0
  rw [View.read_apply]
  show V c main_v23 _ = V c main_v23 _
  refine congrArg (V c main_v23) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5's block at every point is its whole array. -/
theorem blk5_eq (c : Dev nD) (t : Fin cfg0.N) :
    (iblk0 V c 5 t : Vec Ideal S128x128 .bf16) = (V c main_v25 : S128x128.Idx → EReal) := by
  obtain ⟨-, -, -, -, -, ⟨e0, e1⟩, -⟩ := idx_facts t
  funext y
  unfold iblk0
  rw [View.read_apply]
  show V c main_v25 _ = V c main_v25 _
  refine congrArg (V c main_v25) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- Window 6's block at every point is its whole array. -/
theorem blk6_eq (c : Dev nD) (t : Fin cfg0.N) :
    (iblk0 V c 6 t : Vec Ideal S128 .f32) = (V c main_arg6 : S128.Idx → EReal) := by
  obtain ⟨-, -, -, -, -, -, e0, -⟩ := idx_facts t
  funext y
  unfold iblk0
  rw [View.read_apply]
  show V c main_arg6 _ = V c main_arg6 _
  refine congrArg (V c main_arg6) (funext fun a => Fin.ext ?_)
  match a with
  | ⟨0, _⟩ => show win0_6.index t (0 : Fin 1) * 128 + 1 * (y 0).val = (y 0).val; rw [e0]; omega

/-- Window 7's block at every point is its whole array. -/
theorem blk7_eq (c : Dev nD) (t : Fin cfg0.N) :
    (iblk0 V c 7 t : Vec Ideal S128x128 .bf16) = (V c main_v26 : S128x128.Idx → EReal) := by
  obtain ⟨-, -, -, -, -, -, -, ⟨e0, e1⟩, -⟩ := idx_facts t
  funext y
  unfold iblk0
  rw [View.read_apply]
  show V c main_v26 _ = V c main_v26 _
  refine congrArg (V c main_v26) (funext fun a => Fin.ext ?_)
  match a with
  | ⟨0, _⟩ => show win0_7.index t (0 : Fin 2) * 128 + 1 * (y 0).val = (y 0).val; rw [e0]; omega
  | ⟨1, _⟩ => show win0_7.index t (1 : Fin 2) * 128 + 1 * (y 1).val = (y 1).val; rw [e1]; omega

/-- Window 8's block at every point is its whole array. -/
theorem blk8_eq (c : Dev nD) (t : Fin cfg0.N) :
    (iblk0 V c 8 t : Vec Ideal S128 .f32) = (V c main_arg8 : S128.Idx → EReal) := by
  obtain ⟨-, -, -, -, -, -, -, -, e0, -⟩ := idx_facts t
  funext y
  unfold iblk0
  rw [View.read_apply]
  show V c main_arg8 _ = V c main_arg8 _
  refine congrArg (V c main_arg8) (funext fun a => Fin.ext ?_)
  match a with
  | ⟨0, _⟩ => show win0_8.index t (0 : Fin 1) * 128 + 1 * (y 0).val = (y 0).val; rw [e0]; omega

/-- Window 9's block at every point is its whole array. -/
theorem blk9_eq (c : Dev nD) (t : Fin cfg0.N) :
    (iblk0 V c 9 t : Vec Ideal S128x64 .bf16) = (V c main_v27 : S128x64.Idx → EReal) := by
  obtain ⟨-, -, -, -, -, -, -, -, -, ⟨e0, e1⟩, -⟩ := idx_facts t
  funext y
  unfold iblk0
  rw [View.read_apply]
  show V c main_v27 _ = V c main_v27 _
  refine congrArg (V c main_v27) (funext fun a => Fin.ext ?_)
  match a with
  | ⟨0, _⟩ => show win0_9.index t (0 : Fin 2) * 128 + 1 * (y 0).val = (y 0).val; rw [e0]; omega
  | ⟨1, _⟩ => show win0_9.index t (1 : Fin 2) * 64 + 1 * (y 1).val = (y 1).val; rw [e1]; omega

/-- Window 10's block at every point is its whole array. -/
theorem blk10_eq (c : Dev nD) (t : Fin cfg0.N) :
    (iblk0 V c 10 t : Vec Ideal S64 .f32) = (V c main_arg12 : S64.Idx → EReal) := by
  obtain ⟨-, -, -, -, -, -, -, -, -, -, e0, -⟩ := idx_facts t
  funext y
  unfold iblk0
  rw [View.read_apply]
  show V c main_arg12 _ = V c main_arg12 _
  refine congrArg (V c main_arg12) (funext fun a => Fin.ext ?_)
  match a with
  | ⟨0, _⟩ => show win0_10.index t (0 : Fin 1) * 64 + 1 * (y 0).val = (y 0).val; rw [e0]; omega

/-- At point `t`, row `p` of what the body stores to the message window is the message of edge `5000 t + p`. -/
theorem msg_at (c : Dev nD) (t : Fin cfg0.N) (p : Fin 5000) (q : Fin 128) (r : Fin 640000)
    (hr : r.val = t.val * 5000 + p.val) :
    k0_pay2 (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p q)
      = Cert.Spec.msgArr (V c main_v12) (V c main_v19) (V c main_v5) (V c main_v21) (V c main_v23) (V c main_v25)
          (V c main_arg6) (V c main_v26) (V c main_arg8) (ix2 r q) := by
  refine (pay_msg (iblk0 V c 0 t) (iblk0 V c 1 t) (iblk0 V c 2 t) (iblk0 V c 3 t) (iblk0 V c 4 t) (iblk0 V c 5 t)
        (iblk0 V c 6 t) (iblk0 V c 7 t) (iblk0 V c 8 t) p q).trans ?_
  rw [Cert.Spec.msgArr_apply, blk3_eq, blk4_eq, blk5_eq, blk6_eq, blk7_eq, blk8_eq]
  have h0 : Cert.Spec.row (iblk0 V c 0 t : Vec Ideal S5000x128 .bf16) p = Cert.Spec.row (V c main_v12 : S640000x128.Idx → EReal) r :=
    funext fun k => blk0_apply V c t p k r hr
  have h1 : Cert.Spec.row (iblk0 V c 1 t : Vec Ideal S5000x128 .bf16) p = Cert.Spec.row (V c main_v19 : S640000x128.Idx → EReal) r :=
    funext fun k => blk1_apply V c t p k r hr
  have h2 : Cert.Spec.row (iblk0 V c 2 t : Vec Ideal S5000x128 .bf16) p = Cert.Spec.row (V c main_v5 : S640000x128.Idx → EReal) r :=
    funext fun k => blk2_apply V c t p k r hr
  rw [h0, h1, h2]

/-- At point `t`, row `p` of what the body stores to the gate window is the gate of edge `5000 t + p`. -/
theorem gate_at (c : Dev nD) (t : Fin cfg0.N) (p : Fin 5000) (q : Fin 64) (r : Fin 640000)
    (hr : r.val = t.val * 5000 + p.val) :
    k0_pay1 (k0_pay3 (iblk0 V c 0 t) (iblk0 V c 1 t) (iblk0 V c 2 t) (iblk0 V c 3 t) (iblk0 V c 4 t) (iblk0 V c 5 t)
        (iblk0 V c 6 t) (iblk0 V c 7 t) (iblk0 V c 8 t)) (iblk0 V c 9 t) (iblk0 V c 10 t) (ix2 p q)
      = Cert.Spec.gateArr (Cert.Spec.msgArr (V c main_v12) (V c main_v19) (V c main_v5) (V c main_v21) (V c main_v23) (V c main_v25)
          (V c main_arg6) (V c main_v26) (V c main_arg8)) (V c main_v27) (V c main_arg12) (ix2 r q) := by
  refine (pay_gate (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) p q).trans ?_
  rw [Cert.Spec.gateArr_apply, blk9_eq, blk10_eq]
  exact congrArg (fun f => Cert.Spec.gate f (V c main_v27 : S128x64.Idx → EReal) (V c main_arg12 : S64.Idx → EReal) q)
    (funext fun k => msg_at V c t p k r hr)

/-- What point `t` writes back to the message array is block `t` of every edge's message. -/
theorem flushed_msg (c : Dev nD) (t : Fin cfg0.N) :
    (dat0 (F := Ideal) V c).flushed 11 t = ((cfg0.win 11).blk t).view.read (Elt Ideal)
      (Cert.Spec.msgArr (V c main_v12) (V c main_v19) (V c main_v5) (V c main_v21) (V c main_v23) (V c main_v25)
          (V c main_arg6) (V c main_v26) (V c main_arg8)) := by
  show (cfg0.win 11).cut (grid0.coords t) ((dat0 V c).after 11 t) = _
  rw [after0_11]
  unfold out0_11
  rw [View.canon_unit_zero hz2]
  simp only [View.ld_unit_zero (S := S5000x128) hz2, View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  rw [View.read_apply]
  obtain ⟨-, -, -, -, -, -, -, -, -, -, -, ⟨e0, e1⟩, -⟩ := idx_facts t
  have hN : cfg0.N = 128 := N_0
  have ht : t.val < cfg0.N := t.isLt
  have hp : p.val < 5000 := p.isLt
  refine (msg_at V c t p q ⟨t.val * 5000 + p.val, by omega⟩ rfl).trans ?_
  refine congrArg (Cert.Spec.msgArr (V c main_v12) (V c main_v19) (V c main_v5) (V c main_v21) (V c main_v23) (V c main_v25)
          (V c main_arg6) (V c main_v26) (V c main_arg8)) (funext fun a => Fin.ext ?_)
  match a with
  | ⟨0, _⟩ => show t.val * 5000 + p.val = win0_11.index t (0 : Fin 2) * 5000 + 1 * p.val; rw [e0]; omega
  | ⟨1, _⟩ => show q.val = win0_11.index t (1 : Fin 2) * 128 + 1 * q.val; rw [e1]; omega

/-- What point `t` writes back to the gate array is block `t` of every edge's gate. -/
theorem flushed_gate (c : Dev nD) (t : Fin cfg0.N) :
    (dat0 (F := Ideal) V c).flushed 12 t = ((cfg0.win 12).blk t).view.read (Elt Ideal)
      (Cert.Spec.gateArr (Cert.Spec.msgArr (V c main_v12) (V c main_v19) (V c main_v5) (V c main_v21) (V c main_v23) (V c main_v25)
          (V c main_arg6) (V c main_v26) (V c main_arg8)) (V c main_v27) (V c main_arg12)) := by
  show (cfg0.win 12).cut (grid0.coords t) ((dat0 V c).after 12 t) = _
  rw [after0_12]
  unfold out0_12
  rw [View.canon_unit_zero hz2]
  simp only [View.ld_unit_zero (S := S5000x128) hz2, View.ld_unit_zero (S := S128x128) hz2, View.ld_unit_zero (S := S128) hz1,
    View.ld_unit_zero (S := S128x64) hz2, View.ld_unit_zero (S := S64) hz1]
  funext j
  obtain ⟨p, q, rfl⟩ : ∃ (p : Fin 5000) (q : Fin 64), j = ix2 p q := ⟨j 0, j 1, eq_ix2 j⟩
  rw [View.read_apply]
  obtain ⟨-, -, -, -, -, -, -, -, -, -, -, -, ⟨e0, e1⟩⟩ := idx_facts t
  have hN : cfg0.N = 128 := N_0
  have ht : t.val < cfg0.N := t.isLt
  have hp : p.val < 5000 := p.isLt
  refine (gate_at V c t p q ⟨t.val * 5000 + p.val, by omega⟩ rfl).trans ?_
  refine congrArg (Cert.Spec.gateArr (Cert.Spec.msgArr (V c main_v12) (V c main_v19) (V c main_v5) (V c main_v21) (V c main_v23) (V c main_v25)
          (V c main_arg6) (V c main_v26) (V c main_arg8)) (V c main_v27) (V c main_arg12)) (funext fun a => Fin.ext ?_)
  match a with
  | ⟨0, _⟩ => show t.val * 5000 + p.val = win0_12.index t (0 : Fin 2) * 5000 + 1 * p.val; rw [e0]; omega
  | ⟨1, _⟩ => show q.val = win0_12.index t (1 : Fin 2) * 64 + 1 * q.val; rw [e1]; omega

/-- An edge row is in point `t`'s block of the message array iff each coordinate is in the block's range on its axis. -/
theorem mem_blk_msg (t : Fin cfg0.N) (i : S640000x128.Idx) :
    i ∈ ((cfg0.win 11).blk t).view.set ↔ ∀ a : Fin 2, win0_11.index t a * S5000x128.size a ≤ (i a).val
      ∧ (i a).val < win0_11.index t a * S5000x128.size a + S5000x128.size a := by
  show i ∈ ((View.whole main_v28_0).slice (win0_11.rect t)).set ↔ _
  rw [View.set_slice_whole, Rect.mem_set_unit]
  exact Iff.rfl

/-- The same for the gate array. -/
theorem mem_blk_gate (t : Fin cfg0.N) (i : S640000x64.Idx) :
    i ∈ ((cfg0.win 12).blk t).view.set ↔ ∀ a : Fin 2, win0_12.index t a * S5000x64.size a ≤ (i a).val
      ∧ (i a).val < win0_12.index t a * S5000x64.size a + S5000x64.size a := by
  show i ∈ ((View.whole main_v28_1).slice (win0_12.rect t)).set ↔ _
  rw [View.set_slice_whole, Rect.mem_set_unit]
  exact Iff.rfl

/-- Edge row `r` of the message array is in the block of point `r / 5000`, which is written back. -/
theorem cover_msg (i : S640000x128.Idx) :
    ∃ t : Fin cfg0.N, (cfg0.win 11).flush t = true ∧ i ∈ ((cfg0.win 11).blk t).view.set := by
  have hi0 : (i 0).val < 640000 := (i 0).isLt
  have hi1 : (i 1).val < 128 := (i 1).isLt
  have hN : cfg0.N = 128 := N_0
  have hlt : (i 0).val / 5000 < cfg0.N := by rw [hN]; omega
  refine ⟨⟨(i 0).val / 5000, hlt⟩, flush0_11 _, ?_⟩
  rw [mem_blk_msg]
  obtain ⟨-, -, -, -, -, -, -, -, -, -, -, ⟨e0, e1⟩, -⟩ := idx_facts ⟨(i 0).val / 5000, hlt⟩
  intro a
  match a with
  | ⟨0, _⟩ =>
    show win0_11.index ⟨(i 0).val / 5000, hlt⟩ (0 : Fin 2) * 5000 ≤ (i 0).val
      ∧ (i 0).val < win0_11.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_11.index ⟨(i 0).val / 5000, hlt⟩ (1 : Fin 2) * 128 ≤ (i 1).val
      ∧ (i 1).val < win0_11.index ⟨(i 0).val / 5000, hlt⟩ (1 : Fin 2) * 128 + 128
    rw [e1]
    omega

/-- Edge row `r` of the gate array is in the block of point `r / 5000`, which is written back. -/
theorem cover_gate (i : S640000x64.Idx) :
    ∃ t : Fin cfg0.N, (cfg0.win 12).flush t = true ∧ i ∈ ((cfg0.win 12).blk t).view.set := by
  have hi0 : (i 0).val < 640000 := (i 0).isLt
  have hi1 : (i 1).val < 64 := (i 1).isLt
  have hN : cfg0.N = 128 := N_0
  have hlt : (i 0).val / 5000 < cfg0.N := by rw [hN]; omega
  refine ⟨⟨(i 0).val / 5000, hlt⟩, flush0_12 _, ?_⟩
  rw [mem_blk_gate]
  obtain ⟨-, -, -, -, -, -, -, -, -, -, -, -, ⟨e0, e1⟩⟩ := idx_facts ⟨(i 0).val / 5000, hlt⟩
  intro a
  match a with
  | ⟨0, _⟩ =>
    show win0_12.index ⟨(i 0).val / 5000, hlt⟩ (0 : Fin 2) * 5000 ≤ (i 0).val
      ∧ (i 0).val < win0_12.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_12.index ⟨(i 0).val / 5000, hlt⟩ (1 : Fin 2) * 64 ≤ (i 1).val
      ∧ (i 1).val < win0_12.index ⟨(i 0).val / 5000, hlt⟩ (1 : Fin 2) * 64 + 64
    rw [e1]
    omega

theorem arr_msg (c : Dev nD) :
    (dat0 (F := Ideal) V c).arrAt 11 cfg0.N
      = Cert.Spec.msgArr (V c main_v12) (V c main_v19) (V c main_v5) (V c main_v21) (V c main_v23) (V c main_v25)
          (V c main_arg6) (V c main_v26) (V c main_arg8) :=
  (dat0 (F := Ideal) V c).arrAt_eq_of_cover 11 _ (fun t _ => flushed_msg V c t) cover_msg

theorem arr_gate (c : Dev nD) :
    (dat0 (F := Ideal) V c).arrAt 12 cfg0.N
      = Cert.Spec.gateArr (Cert.Spec.msgArr (V c main_v12) (V c main_v19) (V c main_v5) (V c main_v21) (V c main_v23) (V c main_v25)
          (V c main_arg6) (V c main_v26) (V c main_arg8)) (V c main_v27) (V c main_arg12) :=
  (dat0 (F := Ideal) V c).arrAt_eq_of_cover 12 _ (fun t _ => flushed_gate V c t) cover_gate

end Cert.KernelIdeal.Edge

end
-- ==== Proof.NodeRegion.lean ====
import proofs.«146238_j65618510349072_1_alg».proof.Proof.Gen.KernelIdeal.Frame
import proofs.«146238_j65618510349072_1_alg».proof.Proof.Spec
import proofs.«146238_j65618510349072_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Node

open Cert.KernelIdeal Cert.KernelIdeal.Gen Idealize.ShloMosaic Idealize.ShloMosaic.TcCoe Idealize.ShloMosaic.ValueIdx Idealize.SL.Sem
open Idealize.ShloMosaic.Pipeline (Dat Cfg Window)

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the lanes of a `[2000, 128]` vector, at row `p`: the sum of the row's 128 entries. -/
theorem rowSum_apply (src : FVec Ideal S2000x128 .f32) (h : S2000x128.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 128, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! ## The body's arithmetic in three steps -/

/-- The state plus its update, before normalisation: `s + (silu so · Ws + bs)` on a block of rows. -/
def midV (x0 x1 : Vec Ideal S2000x128 .f32) (x2 : Vec Ideal S128x128 .bf16) (x3 : Vec Ideal S128 .f32) : FVec Ideal S2000x128 .f32 :=
  have v2 : FVec Ideal S2000x128 .f32 := shapeCast S2000x128 x1 shapeCasts_S2000x128_S2000x128
  have v3 : FVec Ideal S2000x128 .f32 := logistic v2
  have v4 : FVec Ideal S2000x128 .f32 := mulf v2 v3
  have v5 : FVec Ideal S2000x128 .bf16 := truncf .bf16 v4 bitsLt_bf16_f32
  have v7 : FVec Ideal S128x128 .bf16 := shapeCast S128x128 x2 shapeCasts_S128x128_S128x128
  have cst : FVec Ideal S2000x128 .f32 := constant S2000x128 .f32 0x00000000#32
  have v8 : FVec Ideal S2000x128 .f32 := matmul dot_S2000x128_S128x128_S2000x128_1_0_0_1_n_n none v5 v7 cst
  have v10 : FVec Ideal S1x128 .f32 := shapeCast S1x128 x3 shapeCasts_S128_S1x128
  have v11 : FVec Ideal S2000x128 .f32 := broadcastTo S2000x128 v10 broadcasts_S1x128_S2000x128
  have v12 : FVec Ideal S2000x128 .f32 := addf v8 v11
  addf x0 v12

/-- The mean of each row's 128 entries, as a column. -/
def meanV (A : FVec Ideal S2000x128 .f32) : FVec Ideal S2000x1 .f32 :=
  have v14 : FVec Ideal S2000 .f32 := multiReduction .add [1] S2000 A 0x00000000#32 reduces_S2000x128_S2000 (.inl rfl) rfl
  have v15 : FVec Ideal S2000x1 .f32 := shapeCast S2000x1 v14 shapeCasts_S2000_S2000x1
  have cst_7 : Ideal .f32 := Scalar.ofBits .f32 0x43000000#32
  have v16 : FVec Ideal S2000x1 .f32 := broadcast S2000x1 cst_7
  divf v15 v16

/-- Layer normalisation of each row of a block. -/
def normV (A : FVec Ideal S2000x128 .f32) (x4 x5 : Vec Ideal S128 .f32) : FVec Ideal S2000x128 .f32 :=
  have v18 : FVec Ideal S2000x128 .f32 := broadcastTo S2000x128 (meanV A) broadcasts_S2000x1_S2000x128
  have v19 : FVec Ideal S2000x128 .f32 := subf A v18
  have v20 : FVec Ideal S2000x128 .f32 := mulf v19 v19
  have v24 : FVec Ideal S2000x1 .f32 := meanV v20
  have cst_10 : Ideal .f32 := Scalar.ofBits .f32 0x3727C5AC#32
  have v25 : FVec Ideal S2000x1 .f32 := broadcast S2000x1 cst_10
  have v26 : FVec Ideal S2000x1 .f32 := addf v24 v25
  have v27 : FVec Ideal S2000x1 .f32 := rsqrt v26
  have v29 : FVec Ideal S1x128 .f32 := shapeCast S1x128 x4 shapeCasts_S128_S1x128
  have v30 : FVec Ideal S2000x128 .f32 := broadcastTo S2000x128 v29 broadcasts_S1x128_S2000x128
  have v31 : FVec Ideal S2000x128 .f32 := mulf v30 v19
  have v32 : FVec Ideal S2000x128 .f32 := broadcastTo S2000x128 v27 broadcasts_S2000x1_S2000x128
  have v33 : FVec Ideal S2000x128 .f32 := mulf v31 v32
  have v35 : FVec Ideal S1x128 .f32 := shapeCast S1x128 x5 shapeCasts_S128_S1x128
  have v36 : FVec Ideal S2000x128 .f32 := broadcastTo S2000x128 v35 broadcasts_S1x128_S2000x128
  addf v33 v36

/-- The body's stored value is those three steps composed. -/
theorem pay_eq (x0 x1 : Vec Ideal S2000x128 .f32) (x2 : Vec Ideal S128x128 .bf16) (x3 x4 x5 : Vec Ideal S128 .f32) :
    k1_pay1 x0 x1 x2 x3 x4 x5 = normV (midV x0 x1 x2 x3) x4 x5 := rfl

/-- The state plus its update at an entry: row `p` of the state, plus the activated row `p` of the gathered messages
    against column `q` of the weight, plus the bias. -/
theorem midV_apply (x0 x1 : Vec Ideal S2000x128 .f32) (x2 : Vec Ideal S128x128 .bf16) (x3 : Vec Ideal S128 .f32)
    (p : Fin 2000) (q : Fin 128) :
    midV x0 x1 x2 x3 (ix2 p q) = Cert.Spec.mid (Cert.Spec.row x0 p) (Cert.Spec.row x1 p) x2 x3 q := by
  unfold midV Cert.Spec.mid
  simp only [shapeCast_self]
  show x0 (ix2 p q) + (_ + _) = _
  refine congrArg (x0 (ix2 p q) + ·) (congrArg₂ (· + ·) ?_ ?_)
  · refine (Cert.Lib.PlainDot.matmul_zero_apply (M := 2000) (K := 128) (N := 128) (φ₁ := .bf16) (φ₂ := .bf16) none _ _ p q).trans ?_
    rfl
  · refine (broadcastTo_1b_ab_apply _ _ p q).trans ?_
    exact shapeCast_a_1a_apply x3 _ 0 q

/-- The row mean at row `p`: the sum of the row's entries divided by 128. -/
theorem meanV_apply (A : FVec Ideal S2000x128 .f32) (p : Fin 2000) (u : Fin 1) :
    meanV A (ix2 p u) = Cert.Spec.mean (fun k => A (ix2 p k)) := by
  unfold meanV Cert.Spec.mean Cert.Spec.c128
  show Ideal.div (shapeCast S2000x1 _ shapeCasts_S2000_S2000x1 (ix2 p u)) _ = _
  refine congrArg₂ Ideal.div ?_ rfl
  refine (shapeCast_a_a1_apply _ _ p u).trans ?_
  exact rowSum_apply A _ _ _ p

/-- A row's entry less the row's mean. -/
theorem centred_apply (A : FVec Ideal S2000x128 .f32) (p : Fin 2000) (k : Fin 128) :
    (subf A (broadcastTo S2000x128 (meanV A) broadcasts_S2000x1_S2000x128) : FVec Ideal S2000x128 .f32) (ix2 p k)
      = A (ix2 p k) - Cert.Spec.mean (fun k => A (ix2 p k)) := by
  show A (ix2 p k) - broadcastTo S2000x128 (meanV A) broadcasts_S2000x1_S2000x128 (ix2 p k) = _
  refine congrArg (A (ix2 p k) - ·) ?_
  exact (broadcastTo_a1_ab_apply _ _ p k).trans (meanV_apply A p 0)

/-- The normalised block at an entry is the layer normalisation of the entry's row. -/
theorem normV_apply (A : FVec Ideal S2000x128 .f32) (x4 x5 : Vec Ideal S128 .f32) (p : Fin 2000) (q : Fin 128) :
    normV A x4 x5 (ix2 p q) = Cert.Spec.norm (fun k => A (ix2 p k)) x4 x5 q := by
  unfold normV Cert.Spec.norm Cert.Spec.eps
  show (broadcastTo S2000x128 (shapeCast S1x128 x4 shapeCasts_S128_S1x128) broadcasts_S1x128_S2000x128 (ix2 p q)
        * (subf A (broadcastTo S2000x128 (meanV A) broadcasts_S2000x1_S2000x128) : FVec Ideal S2000x128 .f32) (ix2 p q))
      * broadcastTo S2000x128 _ broadcasts_S2000x1_S2000x128 (ix2 p q)
      + broadcastTo S2000x128 (shapeCast S1x128 x5 shapeCasts_S128_S1x128) broadcasts_S1x128_S2000x128 (ix2 p q) = _
  refine congrArg₂ (· + ·) (congrArg₂ (· * ·) (congrArg₂ (· * ·) ?_ ?_) ?_) ?_
  · exact (broadcastTo_1b_ab_apply _ _ p q).trans (shapeCast_a_1a_apply x4 _ 0 q)
  · exact centred_apply A p q
  · refine (broadcastTo_a1_ab_apply _ _ p q).trans ?_
    show Ideal.rsqrt (meanV _ (ix2 p (0 : Fin 1)) + Ideal.ofBits .f32 0x3727C5AC#32) = _
    refine congrArg (fun z => Ideal.rsqrt (z + Ideal.ofBits .f32 0x3727C5AC#32)) ?_
    refine (meanV_apply _ p 0).trans (congrArg Cert.Spec.mean (funext fun k => ?_))
    show (subf A (broadcastTo S2000x128 (meanV A) broadcasts_S2000x1_S2000x128) : FVec Ideal S2000x128 .f32) (ix2 p k)
        * (subf A (broadcastTo S2000x128 (meanV A) broadcasts_S2000x1_S2000x128) : FVec Ideal S2000x128 .f32) (ix2 p k) = _
    rw [centred_apply]
  · exact (broadcastTo_1b_ab_apply _ _ p q).trans (shapeCast_a_1a_apply x5 _ 0 q)

/-- THE BODY'S STORED VALUE AT AN ENTRY: the layer normalisation of row `p` of the state plus its update, at feature `q`. -/
theorem pay_apply (x0 x1 : Vec Ideal S2000x128 .f32) (x2 : Vec Ideal S128x128 .bf16) (x3 x4 x5 : Vec Ideal S128 .f32)
    (p : Fin 2000) (q : Fin 128) :
    k1_pay1 x0 x1 x2 x3 x4 x5 (ix2 p q)
      = Cert.Spec.norm (Cert.Spec.mid (Cert.Spec.row x0 p) (Cert.Spec.row x1 p) x2 x3) x4 x5 q := by
  rw [pay_eq, normV_apply]
  exact congrArg (fun r => Cert.Spec.norm r x4 x5 q) (funext fun k => midV_apply x0 x1 x2 x3 p k)

variable (V : (c : Dev nD) → (b : Ref sig .tc) → Buf (Elt Ideal) ((c : Thread nD τ).loc b))

/-! ## From blocks to the array -/

theorem hz2 : (![0, 0] : Fin 2 → Nat) = fun _ => 0 := funext fun a => by fin_cases a <;> rfl
theorem hz1 : (![0] : Fin 1 → Nat) = fun _ => 0 := funext fun a => by fin_cases a <;> rfl

/-- The windows' block indices at every grid point: the two row-blocked inputs and the output are at row block `t`,
    column block 0; the weight, the bias and the two normalisation vectors are whole, at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 ∧ win1_5.index t (0 : Fin 1) = 0
    ∧ win1_6.index t (0 : Fin 2) = t.val ∧ win1_6.index t (1 : Fin 2) = 0 :=
  (by decide +kernel : ∀ t : Fin grid1.N, _)

/-- The state's block at point `t` holds rows `2000 t … 2000 t + 1999` of the state. -/
theorem iblk_state (c : Dev nD) (t : Fin cfg1.N) (p : Fin 2000) (k : Fin 128) (r : Fin 20000) (hr : r.val = t.val * 2000 + p.val) :
    (iblk1 V c 0 t : Vec Ideal S2000x128 .f32) (ix2 p k) = (V c main_arg0 : S20000x128.Idx → EReal) (ix2 r k) := by
  obtain ⟨e0, e1, -⟩ := idx_facts t
  unfold iblk1
  rw [View.read_apply]
  show V c main_arg0 (((cfg1.win 0).blk t).view.emb (ix2 p k)) = V c main_arg0 (ix2 r k)
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The gathered messages' block at point `t` holds the same rows of the gathered messages. -/
theorem iblk_gathered (c : Dev nD) (t : Fin cfg1.N) (p : Fin 2000) (k : Fin 128) (r : Fin 20000) (hr : r.val = t.val * 2000 + p.val) :
    (iblk1 V c 1 t : Vec Ideal S2000x128 .f32) (ix2 p k) = (V c main_v36 : S20000x128.Idx → EReal) (ix2 r k) := by
  obtain ⟨-, -, e0, e1, -⟩ := idx_facts t
  unfold iblk1
  rw [View.read_apply]
  show V c main_v36 (((cfg1.win 1).blk t).view.emb (ix2 p k)) = V c main_v36 (ix2 r k)
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * k.val = k.val; rw [e1]; omega

/-- The weight's block is the whole weight, at every point. -/
theorem iblk_weight (c : Dev nD) (t : Fin cfg1.N) :
    (iblk1 V c 2 t : Vec Ideal S128x128 .bf16) = (V c main_v40 : S128x128.Idx → EReal) := by
  obtain ⟨-, -, -, -, e0, e1, -⟩ := idx_facts t
  funext y
  unfold iblk1
  rw [View.read_apply]
  show V c main_v40 (((cfg1.win 2).blk t).view.emb y) = V c main_v40 y
  refine congrArg _ (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias's block is the whole bias. -/
theorem iblk_bias (c : Dev nD) (t : Fin cfg1.N) :
    (iblk1 V c 3 t : Vec Ideal S128 .f32) = (V c main_arg10 : S128.Idx → EReal) := by
  obtain ⟨-, -, -, -, -, -, e0, -⟩ := idx_facts t
  funext y
  unfold iblk1
  rw [View.read_apply]
  show V c main_arg10 (((cfg1.win 3).blk t).view.emb y) = V c main_arg10 y
  refine congrArg _ (funext fun a => Fin.ext ?_)
  match a with
  | ⟨0, _⟩ => show win1_3.index t (0 : Fin 1) * 128 + 1 * (y 0).val = (y 0).val; rw [e0]; omega

/-- The scale's block is the whole scale. -/
theorem iblk_scale (c : Dev nD) (t : Fin cfg1.N) :
    (iblk1 V c 4 t : Vec Ideal S128 .f32) = (V c main_arg13 : S128.Idx → EReal) := by
  obtain ⟨-, -, -, -, -, -, -, e0, -⟩ := idx_facts t
  funext y
  unfold iblk1
  rw [View.read_apply]
  show V c main_arg13 (((cfg1.win 4).blk t).view.emb y) = V c main_arg13 y
  refine congrArg _ (funext fun a => Fin.ext ?_)
  match a with
  | ⟨0, _⟩ => show win1_4.index t (0 : Fin 1) * 128 + 1 * (y 0).val = (y 0).val; rw [e0]; omega

/-- The shift's block is the whole shift. -/
theorem iblk_shift (c : Dev nD) (t : Fin cfg1.N) :
    (iblk1 V c 5 t : Vec Ideal S128 .f32) = (V c main_arg14 : S128.Idx → EReal) := by
  obtain ⟨-, -, -, -, -, -, -, -, e0, -⟩ := idx_facts t
  funext y
  unfold iblk1
  rw [View.read_apply]
  show V c main_arg14 (((cfg1.win 5).blk t).view.emb y) = V c main_arg14 y
  refine congrArg _ (funext fun a => Fin.ext ?_)
  match a with
  | ⟨0, _⟩ => show win1_5.index t (0 : Fin 1) * 128 + 1 * (y 0).val = (y 0).val; rw [e0]; omega

/-- WHAT POINT `t` WRITES BACK is block `t` of the updated node array of the arrays the region is entered with. -/
theorem flushed_node (c : Dev nD) (t : Fin cfg1.N) :
    (dat1 (F := Ideal) V c).flushed 6 t = ((cfg1.win 6).blk t).view.read (Elt Ideal)
      (Cert.Spec.nodeArr (V c main_arg0) (V c main_v36) (V c main_v40) (V c main_arg10) (V c main_arg13) (V c main_arg14)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x128) hz2, View.ld_unit_zero (S := S128) hz1]
  rw [iblk_weight, iblk_bias, iblk_scale, iblk_shift]
  obtain ⟨-, -, -, -, -, -, -, -, -, e0, e1⟩ := idx_facts t
  have ht : t.val < 10 := t.isLt
  funext j
  obtain ⟨p, q, rfl⟩ : ∃ (p : Fin 2000) (q : Fin 128), j = ix2 p q := ⟨j 0, j 1, eq_ix2 j⟩
  show k1_pay1 (iblk1 V c 0 t) (iblk1 V c 1 t) (V c main_v40) (V c main_arg10) (V c main_arg13) (V c main_arg14) (ix2 p q)
    = Cert.Spec.nodeArr (V c main_arg0) (V c main_v36) (V c main_v40) (V c main_arg10) (V c main_arg13) (V c main_arg14)
        (((cfg1.win 6).blk t).view.emb (ix2 p q))
  rw [pay_apply]
  have hemb : (((cfg1.win 6).blk t).view.emb (ix2 p q) : S20000x128.Idx)
      = ix2 (⟨t.val * 2000 + p.val, by have := p.isLt; omega⟩ : Fin 20000) q := by
    funext a; apply Fin.ext
    match a with
    | ⟨0, _⟩ => show win1_6.index t (0 : Fin 2) * 2000 + 1 * p.val = t.val * 2000 + p.val; rw [e0]; omega
    | ⟨1, _⟩ => show win1_6.index t (1 : Fin 2) * 128 + 1 * q.val = q.val; rw [e1]; omega
  refine Eq.trans ?_ (congrArg (Cert.Spec.nodeArr (V c main_arg0) (V c main_v36) (V c main_v40) (V c main_arg10) (V c main_arg13) (V c main_arg14)) hemb).symm
  rw [Cert.Spec.nodeArr_apply]
  refine congrArg (fun s => Cert.Spec.norm s (V c main_arg13) (V c main_arg14) q) ?_
  exact congrArg₂ (fun a b => Cert.Spec.mid a b (V c main_v40) (V c main_arg10))
    (funext fun k => iblk_state V c t p k _ rfl) (funext fun k => iblk_gathered V c t p k _ rfl)

/-- An index of the array is in point `t`'s block iff each coordinate is in the block's range on its axis. -/
theorem mem_blk (t : Fin cfg1.N) (i : S20000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v41).slice (win1_6.rect t)).set ↔ _
  rw [View.set_slice_whole, Rect.mem_set_unit]
  exact Iff.rfl

/-- Row `r` of the array is in the block of point `r / 2000`, and every point writes back: the blocks cover the array. -/
theorem cover_node (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  refine ⟨(⟨(i 0).val / 2000, by show (i 0).val / 2000 < 10; omega⟩ : Fin cfg1.N), flush1_6 _, ?_⟩
  rw [mem_blk]
  obtain ⟨-, -, -, -, -, -, -, -, -, e0, e1⟩ := idx_facts (⟨(i 0).val / 2000, by show (i 0).val / 2000 < 10; omega⟩ : Fin cfg1.N)
  intro a
  match a with
  | ⟨0, _⟩ =>
    show win1_6.index _ (0 : Fin 2) * 2000 ≤ (i 0).val ∧ (i 0).val < win1_6.index _ (0 : Fin 2) * 2000 + 2000
    rw [e0]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e1]; omega

theorem arr_node (c : Dev nD) :
    (dat1 (F := Ideal) V c).arrAt 6 cfg1.N
      = Cert.Spec.nodeArr (V c main_arg0) (V c main_v36) (V c main_v40) (V c main_arg10) (V c main_arg13) (V c main_arg14) := by
  exact (dat1 (F := Ideal) V c).arrAt_eq_of_cover 6 _ (fun t _ => flushed_node V c t) cover_node

end Cert.KernelIdeal.Node

end
-- ==== Proof.Bridge.lean ====
import proofs.«146238_j65618510349072_1_alg».proof.Proof.Gen.KernelIdeal.Frame
import proofs.«146238_j65618510349072_1_alg».proof.Proof.RefStages
import proofs.«146238_j65618510349072_1_alg».proof.Proof.RefValue
import proofs.«146238_j65618510349072_1_alg».proof.Proof.EdgeRegion
import proofs.«146238_j65618510349072_1_alg».proof.Proof.NodeRegion
import proofs.«146238_j65618510349072_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! # The kernel's program, boundary by boundary, against the reference's stages

At the extended reals a change of float format is the identity, so the arrays the edge region is entered with are the
reference's own gathered rows, the edge attributes, the three 128-row bands of the first weight and the other weights
as launched; the edge region leaves the reference's message and gate arrays (the region's value and the stages read
at an entry meet at the row-wise specification); the host operations between the regions are the reference's own
scatter-adds and outer product, applied to equal arrays; the node region leaves the reference's normalised update. -/

section
variable (c : Dev nD)

/-! ## What the edge region is entered with -/

theorem in_v12 : V1 m ρ c main_v12 = Cert.ReferenceIdeal.Stage.val_main_v10 (F := Ideal) (m ((c : Thread nD τ).loc main_arg0)) (m ((c : Thread nD τ).loc main_arg2)) := by
  show StableHlo.after hostOps0 (W0 m ρ c) (Proc.devRef .tc main_v12) = _
  after_results
  rfl

set_option maxHeartbeats 2000000 in
theorem in_v19 : V1 m ρ c main_v19 = Cert.ReferenceIdeal.Stage.val_main_v17 (F := Ideal) (m ((c : Thread nD τ).loc main_arg0)) (m ((c : Thread nD τ).loc main_arg2)) := by
  show StableHlo.after hostOps0 (W0 m ρ c) (Proc.devRef .tc main_v19) = _
  after_results
  rfl

theorem in_v5 : V1 m ρ c main_v5 = (m ((c : Thread nD τ).loc main_arg3)) := by
  show StableHlo.after hostOps0 (W0 m ρ c) (Proc.devRef .tc main_v5) = _
  after_results
  rfl

/-- A band of the first weight is a slice of it along the rows. -/
theorem in_v21 : V1 m ρ c main_v21 = Cert.Spec.rows 0 (by omega) (m ((c : Thread nD τ).loc main_arg5)) := by
  show StableHlo.after hostOps0 (W0 m ρ c) (Proc.devRef .tc main_v21) = _
  after_results
  funext i
  show extractStridedSlice S128x128 ![0, 0] (m ((c : Thread nD τ).loc main_arg5)) slices_S384x128_S128x128_0_0 i = _
  unfold Cert.Spec.rows
  exact extractStridedSlice_apply _ _ _ i _ (fun a => by
    match a with
    | ⟨0, _⟩ => rfl
    | ⟨1, _⟩ => exact (Nat.zero_add _).symm)

theorem in_v23 : V1 m ρ c main_v23 = Cert.Spec.rows 128 (by omega) (m ((c : Thread nD τ).loc main_arg5)) := by
  show StableHlo.after hostOps0 (W0 m ρ c) (Proc.devRef .tc main_v23) = _
  after_results
  funext i
  show extractStridedSlice S128x128 ![128, 0] (m ((c : Thread nD τ).loc main_arg5)) slices_S384x128_S128x128_128_0 i = _
  unfold Cert.Spec.rows
  exact extractStridedSlice_apply _ _ _ i _ (fun a => by
    match a with
    | ⟨0, _⟩ => rfl
    | ⟨1, _⟩ => exact (Nat.zero_add _).symm)

theorem in_v25 : V1 m ρ c main_v25 = Cert.Spec.rows 256 (by omega) (m ((c : Thread nD τ).loc main_arg5)) := by
  show StableHlo.after hostOps0 (W0 m ρ c) (Proc.devRef .tc main_v25) = _
  after_results
  funext i
  show extractStridedSlice S128x128 ![256, 0] (m ((c : Thread nD τ).loc main_arg5)) slices_S384x128_S128x128_256_0 i = _
  unfold Cert.Spec.rows
  exact extractStridedSlice_apply _ _ _ i _ (fun a => by
    match a with
    | ⟨0, _⟩ => rfl
    | ⟨1, _⟩ => exact (Nat.zero_add _).symm)

theorem in_arg6 : V1 m ρ c main_arg6 = (m ((c : Thread nD τ).loc main_arg6)) := by
  show StableHlo.after hostOps0 (W0 m ρ c) (Proc.devRef .tc main_arg6) = _
  after_results

theorem in_v26 : V1 m ρ c main_v26 = (m ((c : Thread nD τ).loc main_arg7)) := by
  show StableHlo.after hostOps0 (W0 m ρ c) (Proc.devRef .tc main_v26) = _
  after_results
  rfl

theorem in_arg8 : V1 m ρ c main_arg8 = (m ((c : Thread nD τ).loc main_arg8)) := by
  show StableHlo.after hostOps0 (W0 m ρ c) (Proc.devRef .tc main_arg8) = _
  after_results

theorem in_v27 : V1 m ρ c main_v27 = (m ((c : Thread nD τ).loc main_arg11)) := by
  show StableHlo.after hostOps0 (W0 m ρ c) (Proc.devRef .tc main_v27) = _
  after_results
  rfl

theorem in_arg12 : V1 m ρ c main_arg12 = (m ((c : Thread nD τ).loc main_arg12)) := by
  show StableHlo.after hostOps0 (W0 m ρ c) (Proc.devRef .tc main_arg12) = _
  after_results

/-! ## What the edge region leaves -/

/-- The message array is the reference's. -/
theorem msg_out : W2 m ρ c (Proc.devRef .tc main_v28_0) = Cert.ReferenceIdeal.Stage.val_main_v27 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  refine (W2_arr m ρ c 11).trans ?_
  rw [Cert.KernelIdeal.Edge.arr_msg (V1 m ρ) c, in_v12, in_v19, in_v5, in_v21, in_v23, in_v25, in_arg6, in_v26, in_arg8]
  exact (Cert.ReferenceIdeal.RefValue.ref_msg _ _ _ _ _ _ _).symm

/-- The gate array is the reference's. -/
theorem gate_out : W2 m ρ c (Proc.devRef .tc main_v28_1) = Cert.ReferenceIdeal.Stage.val_main_v32 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  refine (W2_arr m ρ c 12).trans ?_
  rw [Cert.KernelIdeal.Edge.arr_gate (V1 m ρ) c, in_v12, in_v19, in_v5, in_v21, in_v23, in_v25, in_arg6, in_v26, in_arg8, in_v27, in_arg12,
    ← Cert.ReferenceIdeal.RefValue.ref_msg]
  exact (Cert.ReferenceIdeal.RefValue.ref_gate _ _ _ _ _ _ _ _ _).symm

/-! ## Buffers the edge region does not touch, read at its exit -/

/-- The row indices the scatter-adds use. -/
theorem mid_v1 : W2 m ρ c (Proc.devRef .tc main_v1) = Cert.ReferenceIdeal.Stage.val_main_v1 (F := Ideal) (m ((c : Thread nD τ).loc main_arg2)) := by
  refine (W2_of_ne m ρ c main_v1 (by decide)).trans ?_
  show StableHlo.after hostOps0 (W0 m ρ c) (Proc.devRef .tc main_v1) = _
  after_results
  rfl

theorem mid_arg0 : W2 m ρ c (Proc.devRef .tc main_arg0) = (m ((c : Thread nD τ).loc main_arg0)) := by
  refine (W2_of_ne m ρ c main_arg0 (by decide)).trans ?_
  show StableHlo.after hostOps0 (W0 m ρ c) (Proc.devRef .tc main_arg0) = _
  after_results

theorem mid_arg1 : W2 m ρ c (Proc.devRef .tc main_arg1) = (m ((c : Thread nD τ).loc main_arg1)) := by
  refine (W2_of_ne m ρ c main_arg1 (by decide)).trans ?_
  show StableHlo.after hostOps0 (W0 m ρ c) (Proc.devRef .tc main_arg1) = _
  after_results

theorem mid_arg4 : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  after_results

theorem mid_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results

theorem mid_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

theorem mid_arg13 : W2 m ρ c (Proc.devRef .tc main_arg13) = (m ((c : Thread nD τ).loc main_arg13)) := by
  refine (W2_of_ne m ρ c main_arg13 (by decide)).trans ?_
  show StableHlo.after hostOps0 (W0 m ρ c) (Proc.devRef .tc main_arg13) = _
  after_results

theorem mid_arg14 : W2 m ρ c (Proc.devRef .tc main_arg14) = (m ((c : Thread nD τ).loc main_arg14)) := by
  refine (W2_of_ne m ρ c main_arg14 (by decide)).trans ?_
  show StableHlo.after hostOps0 (W0 m ρ c) (Proc.devRef .tc main_arg14) = _
  after_results

/-! ## What the node region is entered with -/

theorem nd_arg0 : V3 m ρ c main_arg0 = (m ((c : Thread nD τ).loc main_arg0)) := by
  show StableHlo.after hostOps1 (W2 m ρ c) (Proc.devRef .tc main_arg0) = _
  after_results
  exact mid_arg0 m ρ c

/-- The gathered messages: the reference's scatter-add of equal message arrays at equal indices. -/
theorem nd_v36 : V3 m ρ c main_v36 = Cert.ReferenceIdeal.Stage.val_main_v40 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  show StableHlo.after hostOps1 (W2 m ρ c) (Proc.devRef .tc main_v36) = _
  after_results
  rw [msg_out, mid_v1]
  rfl

theorem nd_v40 : V3 m ρ c main_v40 = (m ((c : Thread nD τ).loc main_arg9)) := by
  show StableHlo.after hostOps1 (W2 m ρ c) (Proc.devRef .tc main_v40) = _
  after_results
  rw [mid_arg9]
  rfl

theorem nd_arg10 : V3 m ρ c main_arg10 = (m ((c : Thread nD τ).loc main_arg10)) := by
  show StableHlo.after hostOps1 (W2 m ρ c) (Proc.devRef .tc main_arg10) = _
  after_results
  exact mid_arg10 m ρ c

theorem nd_arg13 : V3 m ρ c main_arg13 = (m ((c : Thread nD τ).loc main_arg13)) := by
  show StableHlo.after hostOps1 (W2 m ρ c) (Proc.devRef .tc main_arg13) = _
  after_results
  exact mid_arg13 m ρ c

theorem nd_arg14 : V3 m ρ c main_arg14 = (m ((c : Thread nD τ).loc main_arg14)) := by
  show StableHlo.after hostOps1 (W2 m ρ c) (Proc.devRef .tc main_arg14) = _
  after_results
  exact mid_arg14 m ρ c

/-! ## The two results -/

/-- The node region leaves the reference's first result. -/
theorem node_out : W4 m ρ c (Proc.devRef .tc main_v41)
    = Cert.ReferenceIdeal.Stage.val_main_v73 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  refine (W4_arr m ρ c 6).trans ?_
  rw [Cert.KernelIdeal.Node.arr_node (V3 m ρ) c, nd_arg0, nd_v36, nd_v40, nd_arg10, nd_arg13, nd_arg14]
  exact (Cert.ReferenceIdeal.RefValue.ref_node _ _ _ _ _ _ _ _ _ _ _).symm

/-- The program's first result is the reference's. -/
theorem result0 : W5 m ρ c (Proc.devRef .tc main_v41)
    = Cert.ReferenceIdeal.Stage.val_main_v73 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg13)) (m ((c : Thread nD τ).loc main_arg14)) := by
  show StableHlo.after hostOps2 (W4 m ρ c) (Proc.devRef .tc main_v41) = _
  after_results
  exact node_out m ρ c

/-- The scattered outer products, as the node region finds and leaves them: the reference's. -/
theorem vec_out : W4 m ρ c (Proc.devRef .tc main_v39)
    = Cert.ReferenceIdeal.Stage.val_main_v43 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  refine (W4_of_ne m ρ c main_v39 (by decide)).trans ?_
  show StableHlo.after hostOps1 (W2 m ρ c) (Proc.devRef .tc main_v39) = _
  after_results
  rw [gate_out, mid_v1, mid_arg4]
  rfl

theorem end_arg1 : W4 m ρ c (Proc.devRef .tc main_arg1) = (m ((c : Thread nD τ).loc main_arg1)) := by
  refine (W4_of_ne m ρ c main_arg1 (by decide)).trans ?_
  show StableHlo.after hostOps1 (W2 m ρ c) (Proc.devRef .tc main_arg1) = _
  after_results
  exact mid_arg1 m ρ c

/-- The program's second result is the reference's. -/
theorem result1 : W5 m ρ c (Proc.devRef .tc main_v42)
    = Cert.ReferenceIdeal.Stage.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) := by
  show StableHlo.after hostOps2 (W4 m ρ c) (Proc.devRef .tc main_v42) = _
  after_results
  rw [vec_out, end_arg1]
  rfl

end

end Cert.KernelIdeal.Bridge

end
-- ==== Proof.lean ====
/-
  The certificate of one message-passing layer: an edge network (gather, two linear layers with silu, a gate),
  scatter-adds onto the nodes, and a residual update with layer normalisation.

  The kernel's program runs the edge network and the node update as two pipelined regions among host operations;
  the reference is the same layer in plain array operations. Over the extended reals the two compute the same
  arrays: a change of float format is the identity, a blockwise matrix product is the product, the product of
  the concatenated inputs with the first weight is the sum of three products with its bands, and every other
  operation is the reference's own. `preserves` asks nothing: the idealization rewrote no operation.

  The frames of the two kernel programs are the generated ones. The kernel's value is read off its run boundary by
  boundary (Proof/Bridge.lean, over Proof/EdgeRegion.lean and Proof/NodeRegion.lean); the reference's run is the
  fold of its operations (Proof/RefOps.lean), tied to its stages (Proof/RefFold.lean), which are read at an entry
  (Proof/RefValue.lean); both meet at the row-wise specification (Proof/Spec.lean).
-/
import proofs.«146238_j65618510349072_1_alg».proof.Defs
import proofs.«146238_j65618510349072_1_alg».proof.Proof.Gen.Kernel
import proofs.«146238_j65618510349072_1_alg».proof.Proof.Gen.Kernel.Frame
import proofs.«146238_j65618510349072_1_alg».proof.Proof.Gen.KernelIdeal
import proofs.«146238_j65618510349072_1_alg».proof.Proof.Gen.KernelIdeal.Frame
import proofs.«146238_j65618510349072_1_alg».proof.Proof.Gen.ReferenceIdeal
import proofs.«146238_j65618510349072_1_alg».proof.Proof.Gen.Pre_finite_inputs
import proofs.«146238_j65618510349072_1_alg».proof.Proof.KernelRun
import proofs.«146238_j65618510349072_1_alg».proof.Proof.RefOps
import proofs.«146238_j65618510349072_1_alg».proof.Proof.RefFold
import proofs.«146238_j65618510349072_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference ends with every argument as launched: no operation of its fold writes one. -/
theorem frame_ri : Cert.frame_ReferenceIdeal := fun m ρ _ =>
  (θ_run Cert.ReferenceIdeal.defs _ _).mono (fun r h c =>
    ⟨(h c Cert.ReferenceIdeal.main_arg0).trans (Cert.ReferenceIdeal.Fold.fold_arg0 _),
     (h c Cert.ReferenceIdeal.main_arg1).trans (Cert.ReferenceIdeal.Fold.fold_arg1 _),
     (h c Cert.ReferenceIdeal.main_arg2).trans (Cert.ReferenceIdeal.Fold.fold_arg2 _),
     (h c Cert.ReferenceIdeal.main_arg3).trans (Cert.ReferenceIdeal.Fold.fold_arg3 _),
     (h c Cert.ReferenceIdeal.main_arg4).trans (Cert.ReferenceIdeal.Fold.fold_arg4 _),
     (h c Cert.ReferenceIdeal.main_arg5).trans (Cert.ReferenceIdeal.Fold.fold_arg5 _),
     (h c Cert.ReferenceIdeal.main_arg6).trans (Cert.ReferenceIdeal.Fold.fold_arg6 _),
     (h c Cert.ReferenceIdeal.main_arg7).trans (Cert.ReferenceIdeal.Fold.fold_arg7 _),
     (h c Cert.ReferenceIdeal.main_arg8).trans (Cert.ReferenceIdeal.Fold.fold_arg8 _),
     (h c Cert.ReferenceIdeal.main_arg9).trans (Cert.ReferenceIdeal.Fold.fold_arg9 _),
     (h c Cert.ReferenceIdeal.main_arg10).trans (Cert.ReferenceIdeal.Fold.fold_arg10 _),
     (h c Cert.ReferenceIdeal.main_arg11).trans (Cert.ReferenceIdeal.Fold.fold_arg11 _),
     (h c Cert.ReferenceIdeal.main_arg12).trans (Cert.ReferenceIdeal.Fold.fold_arg12 _),
     (h c Cert.ReferenceIdeal.main_arg13).trans (Cert.ReferenceIdeal.Fold.fold_arg13 _),
     (h c Cert.ReferenceIdeal.main_arg14).trans (Cert.ReferenceIdeal.Fold.fold_arg14 _)⟩)
    (Cert.ReferenceIdeal.Ops.run_fold (F := Ideal) m ρ)

theorem preserves : Cert.preserves_Kernel_KernelIdeal := trivial

/-- From memories that agree on the arguments both programs end, each result of the reference equal to the kernel's:
    the kernel's results are the reference's stages of its own arguments (`Bridge.result0`, `Bridge.result1`), and the
    reference's fold is its stages (`Fold.fold_v73`, `Fold.fold_v74`). -/
theorem algebraic : Cert.algebraic_KernelIdeal_ReferenceIdeal := by
  intro m ρ m' ρ' _ hagree
  refine ⟨fun c => Cert.KernelIdeal.Gen.W5 m ρ c (Proc.devRef .tc Cert.KernelIdeal.main_v41), fun c => Cert.KernelIdeal.Gen.W5 m ρ c (Proc.devRef .tc Cert.KernelIdeal.main_v42), ?_, ?_⟩
  · refine (θ_run Cert.KernelIdeal.defs _ _).mono (fun r h c => ?_) (Cert.KernelIdeal.GenRun.run_all (F := Ideal) m ρ)
    exact ⟨h c _ (Cert.KernelIdeal.Gen.mem_uc Cert.KernelIdeal.main_v41 (by decide)), h c _ (Cert.KernelIdeal.Gen.mem_uc Cert.KernelIdeal.main_v42 (by decide)),
      (h c _ (Cert.KernelIdeal.Gen.mem_uc Cert.KernelIdeal.main_arg0 (by decide))).trans (Cert.KernelIdeal.Gen.W5_main_arg0 m ρ c),
      (h c _ (Cert.KernelIdeal.Gen.mem_uc Cert.KernelIdeal.main_arg1 (by decide))).trans (Cert.KernelIdeal.Gen.W5_main_arg1 m ρ c),
      (h c _ (Cert.KernelIdeal.Gen.mem_uc Cert.KernelIdeal.main_arg2 (by decide))).trans (Cert.KernelIdeal.Gen.W5_main_arg2 m ρ c),
      (h c _ (Cert.KernelIdeal.Gen.mem_uc Cert.KernelIdeal.main_arg3 (by decide))).trans (Cert.KernelIdeal.Gen.W5_main_arg3 m ρ c),
      (h c _ (Cert.KernelIdeal.Gen.mem_uc Cert.KernelIdeal.main_arg4 (by decide))).trans (Cert.KernelIdeal.Gen.W5_main_arg4 m ρ c),
      (h c _ (Cert.KernelIdeal.Gen.mem_uc Cert.KernelIdeal.main_arg5 (by decide))).trans (Cert.KernelIdeal.Gen.W5_main_arg5 m ρ c),
      (h c _ (Cert.KernelIdeal.Gen.mem_uc Cert.KernelIdeal.main_arg6 (by decide))).trans (Cert.KernelIdeal.Gen.W5_main_arg6 m ρ c),
      (h c _ (Cert.KernelIdeal.Gen.mem_uc Cert.KernelIdeal.main_arg7 (by decide))).trans (Cert.KernelIdeal.Gen.W5_main_arg7 m ρ c),
      (h c _ (Cert.KernelIdeal.Gen.mem_uc Cert.KernelIdeal.main_arg8 (by decide))).trans (Cert.KernelIdeal.Gen.W5_main_arg8 m ρ c),
      (h c _ (Cert.KernelIdeal.Gen.mem_uc Cert.KernelIdeal.main_arg9 (by decide))).trans (Cert.KernelIdeal.Gen.W5_main_arg9 m ρ c),
      (h c _ (Cert.KernelIdeal.Gen.mem_uc Cert.KernelIdeal.main_arg10 (by decide))).trans (Cert.KernelIdeal.Gen.W5_main_arg10 m ρ c),
      (h c _ (Cert.KernelIdeal.Gen.mem_uc Cert.KernelIdeal.main_arg11 (by decide))).trans (Cert.KernelIdeal.Gen.W5_main_arg11 m ρ c),
      (h c _ (Cert.KernelIdeal.Gen.mem_uc Cert.KernelIdeal.main_arg12 (by decide))).trans (Cert.KernelIdeal.Gen.W5_main_arg12 m ρ c),
      (h c _ (Cert.KernelIdeal.Gen.mem_uc Cert.KernelIdeal.main_arg13 (by decide))).trans (Cert.KernelIdeal.Gen.W5_main_arg13 m ρ c),
      (h c _ (Cert.KernelIdeal.Gen.mem_uc Cert.KernelIdeal.main_arg14 (by decide))).trans (Cert.KernelIdeal.Gen.W5_main_arg14 m ρ c)⟩
  · refine (θ_run Cert.ReferenceIdeal.defs _ _).mono (fun r h c => ?_) (Cert.ReferenceIdeal.Ops.run_fold (F := Ideal) m' ρ')
    obtain ⟨e0, e1, e2, e3, e4, e5, e6, e7, e8, e9, e10, e11, e12, e13, e14⟩ := hagree c
    refine ⟨?_, ?_, (h c Cert.ReferenceIdeal.main_arg0).trans (Cert.ReferenceIdeal.Fold.fold_arg0 _),
      (h c Cert.ReferenceIdeal.main_arg1).trans (Cert.ReferenceIdeal.Fold.fold_arg1 _),
      (h c Cert.ReferenceIdeal.main_arg2).trans (Cert.ReferenceIdeal.Fold.fold_arg2 _),
      (h c Cert.ReferenceIdeal.main_arg3).trans (Cert.ReferenceIdeal.Fold.fold_arg3 _),
      (h c Cert.ReferenceIdeal.main_arg4).trans (Cert.ReferenceIdeal.Fold.fold_arg4 _),
      (h c Cert.ReferenceIdeal.main_arg5).trans (Cert.ReferenceIdeal.Fold.fold_arg5 _),
      (h c Cert.ReferenceIdeal.main_arg6).trans (Cert.ReferenceIdeal.Fold.fold_arg6 _),
      (h c Cert.ReferenceIdeal.main_arg7).trans (Cert.ReferenceIdeal.Fold.fold_arg7 _),
      (h c Cert.ReferenceIdeal.main_arg8).trans (Cert.ReferenceIdeal.Fold.fold_arg8 _),
      (h c Cert.ReferenceIdeal.main_arg9).trans (Cert.ReferenceIdeal.Fold.fold_arg9 _),
      (h c Cert.ReferenceIdeal.main_arg10).trans (Cert.ReferenceIdeal.Fold.fold_arg10 _),
      (h c Cert.ReferenceIdeal.main_arg11).trans (Cert.ReferenceIdeal.Fold.fold_arg11 _),
      (h c Cert.ReferenceIdeal.main_arg12).trans (Cert.ReferenceIdeal.Fold.fold_arg12 _),
      (h c Cert.ReferenceIdeal.main_arg13).trans (Cert.ReferenceIdeal.Fold.fold_arg13 _),
      (h c Cert.ReferenceIdeal.main_arg14).trans (Cert.ReferenceIdeal.Fold.fold_arg14 _)⟩
    · refine (h c Cert.ReferenceIdeal.main_v73).trans ((Cert.ReferenceIdeal.Fold.fold_v73 _).trans ?_)
      show _ = Cert.KernelIdeal.Gen.W5 m ρ c (Proc.devRef .tc Cert.KernelIdeal.main_v41)
      rw [Cert.KernelIdeal.Bridge.result0 m ρ c, ← e0, ← e2, ← e3, ← e5, ← e6, ← e7, ← e8, ← e9, ← e10, ← e13, ← e14]
    · refine (h c Cert.ReferenceIdeal.main_v74).trans ((Cert.ReferenceIdeal.Fold.fold_v74 _).trans ?_)
      show _ = Cert.KernelIdeal.Gen.W5 m ρ c (Proc.devRef .tc Cert.KernelIdeal.main_v42)
      rw [Cert.KernelIdeal.Bridge.result1 m ρ c, ← e0, ← e1, ← e2, ← e3, ← e4, ← e5, ← e6, ← e7, ← e8, ← e11, ← e12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
